-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S512x40 : Shape := ⟨2, ![512, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S256x256 .f32) (main_arg9 : FVec F S512x40 .f32) (main_arg10 : FVec F S40 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S512x40 .f32 := Host.absf main_arg9
  let main_cst_14 : FVec F S_ .f32 := constant S_ .f32 0x7F800000#32
  let main_v40 : FVec F S512x40 .f32 := broadcastInDim S512x40 ![] bcast_S_S512x40 main_cst_14
  let main_v41 : IVec S512x40 1 := cmpf .olt main_v39 main_v40
  let main_c_15 : IVec S_ 1 := constantI S_ 1 1#1
  let main_v42 : IVec S_ 1 := (fun x v => Host.reduce IntOp.andi x v reducesTo_S512x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S128x256 .f32) (main_arg6 : FVec F S256x256 .f32) (main_arg7 : FVec F S256 .f32) (main_arg8 : FVec F S256x256 .f32) (main_arg9 : FVec F S512x40 .f32) (main_arg10 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000 .f32) (main_arg3 : FVec F S128x256 .f32) (main_arg4 : FVec F S256 .f32) (main_arg5 : FVec F S128x256 .f32) (main_arg6 : FVec F S256x256 .f32) (main_arg7 : FVec F S256 .f32) (main_arg8 : FVec F S256x256 .f32) (main_arg9 : FVec F S512x40 .f32) (main_arg10 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S512x40 : Shape := ⟨2, ![512, 40]⟩
abbrev S40 : Shape := ⟨1, ![40]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S256x40 : Shape := ⟨2, ![256, 40]⟩
abbrev S1x40 : Shape := ⟨2, ![1, 40]⟩
abbrev S50000x40 : Shape := ⟨2, ![50000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 55
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S256, .f32⟩
  | .hbm, ⟨5, _⟩ => ⟨S128x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S512x40, .f32⟩
  | .hbm, ⟨10, _⟩ => ⟨S40, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x1, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S1x256, .f32⟩
  | .hbm, ⟨32, _⟩ => ⟨S50000x256, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x256, .f32⟩
  | .hbm, ⟨42, _⟩ => ⟨S800000x1, .f32⟩
  | .hbm, ⟨43, _⟩ => ⟨S800000x256, .f32⟩
  | .hbm, ⟨44, _⟩ => ⟨S800000x256, .f32⟩
  | .hbm, ⟨45, _⟩ => ⟨S_, .f32⟩
  | .hbm, ⟨46, _⟩ => ⟨S50000x256, .f32⟩
  | .hbm, ⟨47, _⟩ => ⟨S800000x1, .i32⟩
  | .hbm, ⟨48, _⟩ => ⟨S50000x256, .f32⟩
  | .hbm, ⟨49, _⟩ => ⟨S1x256, .f32⟩
  | .hbm, ⟨50, _⟩ => ⟨S50000x256, .f32⟩
  | .hbm, ⟨51, _⟩ => ⟨S256x40, .f32⟩
  | .hbm, ⟨52, _⟩ => ⟨S256x40, .f32⟩
  | .hbm, ⟨53, _⟩ => ⟨S1x40, .f32⟩
  | .hbm, ⟨54, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x40, .f32⟩
  | .local _ .vmem, ⟨23, _⟩ => ⟨S256x40, .f32⟩
  | .local _ .vmem, ⟨24, _⟩ => ⟨S1x40, .f32⟩
  | .local _ .vmem, ⟨25, _⟩ => ⟨S2000x40, .f32⟩
  | .local _ .vmem, ⟨26, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  slices_S512x40_S256x40_0_0 : S512x40.Slices ![0, 0] S256x40
  slices_S512x40_S256x40_256_0 : S512x40.Slices ![256, 0] S256x40
  shapeCasts_S40_S1x40 : S40.ShapeCasts S1x40
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x40_S2000x40_1_0_0_1_n_n_wf : DotDims.WF S2000x256 S256x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x40.size a ≤ S256x40.size a
  hwx2_2 : ∀ i : grid2.Coords, EltTy.bits .f32 = 32 ∨ (Rect.block (s := S256x40) S256x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x40.size a ≤ S256x40.size a
  hwx2_3 : ∀ i : grid2.Coords, EltTy.bits .f32 = 32 ∨ (Rect.block (s := S256x40) S256x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x40.size a ≤ S50000x40.size a
  hwx2_5 : ∀ i : grid2.Coords, EltTy.bits .f32 = 32 ∨ (Rect.block (s := S50000x40) S2000x40.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf

abbrev win0_0 : Pipeline.Window sig grid0 :=
  Pipeline.Window.ofSpec (Memref.whole main_v16) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v18) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S256x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S256x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S2000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S512x40 : Shape := ⟨2, ![512, 40]⟩
abbrev S40 : Shape := ⟨1, ![40]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x512 : Shape := ⟨2, ![50000, 512]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S256, .f32⟩
  | .hbm, ⟨5, _⟩ => ⟨S128x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S512x40, .f32⟩
  | .hbm, ⟨10, _⟩ => ⟨S40, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x1, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x256, .f32⟩
  | .hbm, ⟨32, _⟩ => ⟨S1x256, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S800000x1, .f32⟩
  | .hbm, ⟨50, _⟩ => ⟨S800000x256, .f32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S50000x512, .f32⟩
  | .hbm, ⟨66, _⟩ => ⟨S50000x40, .f32⟩
  | .hbm, ⟨67, _⟩ => ⟨S1x40, .f32⟩
  | .hbm, ⟨68, _⟩ => ⟨S50000x40, .f32⟩
  | .hbm, ⟨69, _⟩ => ⟨S50000x40, .f32⟩
  | .hbm, ⟨70, _⟩ => ⟨S_, .f32⟩
  | .hbm, ⟨71, _⟩ => ⟨S50000, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000x1, .f32⟩
  | .hbm, ⟨76, _⟩ => ⟨S50000x40, .f32⟩
  | .hbm, ⟨77, _⟩ => ⟨S50000x40, .f32⟩
  | .hbm, ⟨78, _⟩ => ⟨S50000x40, .f32⟩
  | .hbm, ⟨79, _⟩ => ⟨S_, .f32⟩
  | .hbm, ⟨80, _⟩ => ⟨S50000, .f32⟩
  | .hbm, ⟨81, _⟩ => ⟨S50000x1, .f32⟩
  | .hbm, ⟨82, _⟩ => ⟨S50000x1, .f32⟩
  | .hbm, ⟨83, _⟩ => ⟨S50000x40, .f32⟩
  | .hbm, ⟨84, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_cst : Ref sig .tc := ⟨.hbm, 62, rfl⟩
abbrev main_call1_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call2_cst : Ref sig .tc := ⟨.hbm, 70, rfl⟩
abbrev main_call2_v0 : Ref sig .tc := ⟨.hbm, 71, rfl⟩
abbrev main_call2_cst_0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_cst_1 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_v49 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S800000x1_S800000x256_0_1 : S800000x1.BroadcastsInDim S800000x256 (![0, 1] : Fin 2 → Fin S800000x256.rank)
  concatenates_S50000x256_S50000x256_S50000x512_d1 : Shape.Concatenates [S50000x256, S50000x256] S50000x512 1
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x512_S512x40_S50000x40_1_0_0_1_n_n_wf : DotDims.WF S50000x512 S512x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x512_S512x40_S50000x40_1_0_0_1_n_n : DotDims S50000x512 S512x40 S50000x40 where
  lhsContracting := [1]
  rhsContracting := [0]
  lhsNonContracting := [0]
  rhsNonContracting := [1]
  lhsBatch := []
  rhsBatch := []
  wf := dot_S50000x512_S512x40_S50000x40_1_0_0_1_n_n_wf

class Facts : Prop extends Facts₀ where

variable [Facts]
-- ==== Proof.Spec.lean ====
/-
  The network both programs compute, written once, entry by entry, over the extended reals.

  A graph-convolution layer sends node features X (one row per node) to
      relu ((agg X) · W_rel + X · W_root + b),
  where agg X sums, into each destination node's row, the source nodes' rows scaled by the edge weights (a gather of
  rows, a scaling, a scatter-add). Two such layers are stacked, and the classifier head multiplies the two layers'
  outputs by the upper and the lower half of one weight matrix, adds a bias and takes a log-softmax along each row:
      logits - max logits - log (∑ exp (logits - max logits)).
  The aggregation is kept as ONE function of its three operands (it is never opened: both programs apply it verbatim);
  everything else is stated at an entry (n, j) as finite sums, a maximum and the two transcendental functions.
-/
import proofs.«152914_j38147899523750_1_alg».proof.Proof.Gen.KernelIdeal
import Idealize.ShloMosaic.PureOps.Ideal
import Idealize.ShloMosaic.Lib.ValueIdx

noncomputable section

namespace Cert.Net

open Idealize.ShloMosaic Idealize.ShloMosaic.ValueIdx Cert.KernelIdeal Cert.KernelIdeal.Gen

/-- A matrix of extended reals with `r` rows and `c` columns. -/
abbrev Mat (r c : ℕ) := (⟨2, ![r, c]⟩ : Shape).Idx → EReal
/-- A vector of extended reals of length `n`. -/
abbrev Vct (n : ℕ) := (⟨1, ![n]⟩ : Shape).Idx → EReal

/-! ## The aggregation: gather the source rows, scale by the edge weight, add into the destination rows -/

section Agg
variable {F : FTy → Type} [FloatOps F]

/-- Row 0 of the edge list, flattened: the source node of each edge. -/
def srcOf (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- Row 1 of the edge list, flattened: the destination node of each edge. -/
def dstOf (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- The source indices as the gather takes them: a negative index counts from the end (50000 is added), and the
    vector is laid out as one column. -/
def srcCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The aggregation of 128-wide features: for every edge the source row times the edge weight, added into the
    destination row of a zero array. -/
def agg128 (x : (⟨S50000x128, .f32⟩ : BufTy).Contents (Elt F)) (s d : (⟨S800000, .i32⟩ : BufTy).Contents (Elt F))
    (ew : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (mulf (Host.gather gather_S50000x128_S800000x1_S800000x128_1_0_n_n_0_1_1128 x (srcCol s))
      (broadcastInDim S800000x128 ![0, 1] bcast_S800000x1_S800000x128_0_1 (broadcastInDim S800000x1 ![0] bcast_S800000_S800000x1_0 ew)))

/-- The aggregation of 256-wide features. -/
def agg256 (x : (⟨S50000x256, .f32⟩ : BufTy).Contents (Elt F)) (s d : (⟨S800000, .i32⟩ : BufTy).Contents (Elt F))
    (ew : (⟨S800000, .f32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 d)
    (mulf (Host.gather gather_S50000x256_S800000x1_S800000x256_1_0_n_n_0_1_1256 x (srcCol s))
      (broadcastInDim S800000x256 ![0, 1] bcast_S800000x1_S800000x256_0_1 (broadcastInDim S800000x1 ![0] bcast_S800000_S800000x1_0 ew)))

end Agg

/-! ## A layer and the head, entry by entry -/

/-- A length-`n` vector read as the one row of a `1 × n` matrix. -/
def asRow {n : ℕ} (b : Vct n) : Mat 1 n := fun i => b (ix1 (i 1))

/-- Entry (n, j) of a layer: relu of (agg · W_rel + X · W_root + b). -/
def convAt {K : ℕ} (A X : Mat 50000 K) (Wr Wo : Mat K 256) (b : Mat 1 256) (n : Fin 50000) (j : Fin 256) : EReal :=
  max (((∑ k : Fin K, A (ix2 n k) * Wr (ix2 k j)) + ∑ k : Fin K, X (ix2 n k) * Wo (ix2 k j)) + b (ix2 0 j)) 0

/-- A layer's output array. -/
def conv {K : ℕ} (A X : Mat 50000 K) (Wr Wo : Mat K 256) (b : Mat 1 256) : Mat 50000 256 :=
  fun i => convAt A X Wr Wo b (i 0) (i 1)

theorem conv_apply {K : ℕ} (A X : Mat 50000 K) (Wr Wo : Mat K 256) (b : Mat 1 256) (n : Fin 50000) (j : Fin 256) :
    conv A X Wr Wo b (ix2 n j) = convAt A X Wr Wo b n j := rfl

/-- The upper half (rows 0 … 255) of the head's weight matrix. -/
def top (w : Mat 512 40) : Mat 256 40 := fun i => w (ix2 (Fin.castAdd 256 (i 0 : Fin 256)) (i 1))
/-- The lower half (rows 256 … 511) of the head's weight matrix. -/
def bot (w : Mat 512 40) : Mat 256 40 := fun i => w (ix2 (Fin.natAdd 256 (i 0 : Fin 256)) (i 1))

/-- Entry (n, j) of the logits: x1 · W_top + x2 · W_bot + b. -/
def logitAt (x1 x2 : Mat 50000 256) (wt wb : Mat 256 40) (b : Mat 1 40) (n : Fin 50000) (j : Fin 40) : EReal :=
  ((∑ k : Fin 256, x1 (ix2 n k) * wt (ix2 k j)) + ∑ k : Fin 256, x2 (ix2 n k) * wb (ix2 k j)) + b (ix2 0 j)

/-- Row n's largest logit (from −∞). -/
def rowMax (x1 x2 : Mat 50000 256) (wt wb : Mat 256 40) (b : Mat 1 40) (n : Fin 50000) : EReal :=
  (Finset.univ : Finset (Fin 40)).fold max ⊥ (fun j => logitAt x1 x2 wt wb b n j)

/-- Entry (n, j) of the shifted logits. -/
def shiftAt (x1 x2 : Mat 50000 256) (wt wb : Mat 256 40) (b : Mat 1 40) (n : Fin 50000) (j : Fin 40) : EReal :=
  logitAt x1 x2 wt wb b n j - rowMax x1 x2 wt wb b n

/-- Entry (n, j) of the head: the log-softmax of row n at j. -/
def headAt (x1 x2 : Mat 50000 256) (wt wb : Mat 256 40) (b : Mat 1 40) (n : Fin 50000) (j : Fin 40) : EReal :=
  shiftAt x1 x2 wt wb b n j - Ideal.log (∑ k : Fin 40, Ideal.exp (shiftAt x1 x2 wt wb b n k))

/-- The head's output array. -/
def head (x1 x2 : Mat 50000 256) (wt wb : Mat 256 40) (b : Mat 1 40) : Mat 50000 40 :=
  fun i => headAt x1 x2 wt wb b (i 0) (i 1)

theorem head_apply (x1 x2 : Mat 50000 256) (wt wb : Mat 256 40) (b : Mat 1 40) (n : Fin 50000) (j : Fin 40) :
    head x1 x2 wt wb b (ix2 n j) = headAt x1 x2 wt wb b n j := rfl

/-! ## The whole network as a function of the eleven arguments -/

/-- The first layer's output. -/
def layer1 (x : Mat 50000 128) (ei : (⟨S2x800000, .i32⟩ : BufTy).Contents (Elt Ideal)) (ew : Vct 800000)
    (w1r : Mat 128 256) (b1 : Vct 256) (w1o : Mat 128 256) : Mat 50000 256 :=
  conv (agg128 (F := Ideal) x (srcOf (F := Ideal) ei) (dstOf (F := Ideal) ei) ew) x w1r w1o (asRow b1)

/-- The second layer's output, from the first layer's. -/
def layer2 (h : Mat 50000 256) (ei : (⟨S2x800000, .i32⟩ : BufTy).Contents (Elt Ideal)) (ew : Vct 800000)
    (w2r : Mat 256 256) (b2 : Vct 256) (w2o : Mat 256 256) : Mat 50000 256 :=
  conv (agg256 (F := Ideal) h (srcOf (F := Ideal) ei) (dstOf (F := Ideal) ei) ew) h w2r w2o (asRow b2)

/-- The network's result. -/
def out (x : Mat 50000 128) (ei : (⟨S2x800000, .i32⟩ : BufTy).Contents (Elt Ideal)) (ew : Vct 800000)
    (w1r : Mat 128 256) (b1 : Vct 256) (w1o : Mat 128 256) (w2r : Mat 256 256) (b2 : Vct 256) (w2o : Mat 256 256)
    (wl : Mat 512 40) (bl : Vct 40) : Mat 50000 40 :=
  head (layer1 x ei ew w1r b1 w1o) (layer2 (layer1 x ei ew w1r b1 w1o) ei ew w2r b2 w2o) (top wl) (bot wl) (asRow bl)

end Cert.Net

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.KRegion0.lean ====
import proofs.«152914_j38147899523750_1_alg».proof.Proof.Gen.KernelIdeal.Frame
import proofs.«152914_j38147899523750_1_alg».proof.Proof.Spec
import proofs.«152914_j38147899523750_1_alg».proof.Proof.LibMatmulPlain
import Idealize.ShloMosaic.Lib.Pipeline.Value
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## What a grid point computes from its loaded blocks, at an entry -/

/-- The printed contraction record is the plain product's. -/
theorem dot_eq : dot_S2000x128_S128x256_S2000x256_1_0_0_1_n_n = DotDims.plain 2000 128 256 := rfl

/-- The bias row broadcast down the 2000 rows reads the row at the column. -/
theorem bias_apply (b : Vec Ideal S1x256 .f32) (p : Fin 2000) (q : Fin 256) :
    broadcastTo S2000x256 b broadcasts_S1x256_S2000x256 (ix2 p q) = b (ix2 0 q) := by
  refine broadcastTo_apply b _ (ix2 p q) (ix2 0 q) fun a => ?_
  match a with
  | ⟨0, _⟩ => rfl
  | ⟨1, _⟩ => rfl

/-- Entry (p, q) of what a grid point computes from its loaded blocks: relu of the two block products plus the bias. -/
theorem pay_apply (v0 v3 : Vec Ideal S2000x128 .f32) (v5 v7 : Vec Ideal S128x256 .f32) (v12 : Vec Ideal S1x256 .f32)
    (p : Fin 2000) (q : Fin 256) :
    k0_pay1 (F := Ideal) v0 v3 v5 v7 v12 (ix2 p q)
      = max (((∑ k : Fin 128, v0 (ix2 p k) * v5 (ix2 k q)) + ∑ k : Fin 128, v3 (ix2 p k) * v7 (ix2 k q)) + v12 (ix2 0 q)) 0 := by
  unfold k0_pay1
  rw [maximumf_apply, addf_apply, addf_apply, broadcast_apply, dot_eq]
  rw [MatmulPlain.matmul_zero_apply, MatmulPlain.matmul_zero_apply]
  rw [shapeCast_self, shapeCast_self, bias_apply]
  simp only [truncf_apply]
  rw [show (FloatOps.ofBits FTy.f32 0#32 : Ideal .f32) = 0 from Ideal.ofBits_zero_f32]

/-! ## The grid: which rows each point's blocks hold -/

/-- A whole-block access starts at offset zero on both axes. -/
theorem zeroOff : (![0, 0] : Fin 2 → Nat) = fun _ => 0 := funext fun a => by fin_cases a <;> rfl

/-- The index maps over the 25 grid points: the two row-blocked inputs and the output are at block row t,
    column block 0; the two weight matrices and the bias are the one whole block. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The node whose row is row p of block t: 2000 · t + p. -/
def rowOf (t : Fin cfg0.N) (p : Fin 2000) : Fin 50000 :=
  ⟨t.val * 2000 + p.val, by have ht : t.val < 25 := t.isLt; have hp := p.isLt; omega⟩

/-! ## Where a block's entry sits in its array -/

/-- Entry (p, k) of block t of the aggregated features is entry (2000 · t + p, k) of the array. -/
theorem emb_agg (t : Fin cfg0.N) (p : Fin 2000) (k : Fin 128) :
    ((cfg0.win 0).blk t).view.emb (ix2 p k) = ix2 (rowOf t p) k := by
  obtain ⟨e0, e1, -⟩ := blockIndex t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

/-- Entry (p, k) of block t of the node features is entry (2000 · t + p, k) of the array. -/
theorem emb_feat (t : Fin cfg0.N) (p : Fin 2000) (k : Fin 128) :
    ((cfg0.win 1).blk t).view.emb (ix2 p k) = ix2 (rowOf t p) k := by
  obtain ⟨-, -, e0, e1, -⟩ := blockIndex t
  funext a; apply Fin.ext
  match a with
  | ⟨0, _⟩ => show win0_1.index t (0 : Fin 2) * 2000 + 1 * p.val = t.val * 2000 + p.val; omega
  | ⟨1, _⟩ => show win0_1.index t (1 : Fin 2) * 128 + 1 * k.val = k.val; omega

/-- The weight matrix of the aggregated term is one whole block at every point. -/
theorem emb_wrel (t : Fin cfg0.N) (k : Fin 128) (q : Fin 256) :
    ((cfg0.win 2).blk t).view.emb (ix2 k q) = ix2 k q := by
  obtain ⟨-, -, -, -, e0, e1, -⟩ := blockIndex t
  funext a; apply Fin.ext
  match a with
  | ⟨0, _⟩ => show win0_2.index t (0 : Fin 2) * 128 + 1 * k.val = k.val; omega
  | ⟨1, _⟩ => show win0_2.index t (1 : Fin 2) * 256 + 1 * q.val = q.val; omega

/-- The weight matrix of the root term is one whole block at every point. -/
theorem emb_wroot (t : Fin cfg0.N) (k : Fin 128) (q : Fin 256) :
    ((cfg0.win 3).blk t).view.emb (ix2 k q) = ix2 k q := by
  obtain ⟨-, -, -, -, -, -, e0, e1, -⟩ := blockIndex t
  funext a; apply Fin.ext
  match a with
  | ⟨0, _⟩ => show win0_3.index t (0 : Fin 2) * 128 + 1 * k.val = k.val; omega
  | ⟨1, _⟩ => show win0_3.index t (1 : Fin 2) * 256 + 1 * q.val = q.val; omega

/-- The bias row is one whole block at every point. -/
theorem emb_bias (t : Fin cfg0.N) (q : Fin 256) :
    ((cfg0.win 4).blk t).view.emb (ix2 (0 : Fin 1) q) = ix2 (0 : Fin 1) q := by
  obtain ⟨-, -, -, -, -, -, -, -, e0, e1, -⟩ := blockIndex t
  funext a; apply Fin.ext
  match a with
  | ⟨0, _⟩ => show win0_4.index t (0 : Fin 2) * 1 + 1 * 0 = 0; omega
  | ⟨1, _⟩ => show win0_4.index t (1 : Fin 2) * 256 + 1 * q.val = q.val; omega

/-- Entry (p, q) of block t of the output is entry (2000 · t + p, q) of the array. -/
theorem emb_out (t : Fin cfg0.N) (p : Fin 2000) (q : Fin 256) :
    ((cfg0.win 5).blk t).view.emb (ix2 p q) = ix2 (rowOf t p) q := by
  obtain ⟨-, -, -, -, -, -, -, -, -, -, e0, e1⟩ := blockIndex t
  funext a; apply Fin.ext
  match a with
  | ⟨0, _⟩ => show win0_5.index t (0 : Fin 2) * 2000 + 1 * p.val = t.val * 2000 + p.val; omega
  | ⟨1, _⟩ => show win0_5.index t (1 : Fin 2) * 256 + 1 * q.val = q.val; omega

/-! ## The blocks a point loads, entry by entry -/

/-- Entry (p, k) of the block of aggregated features point t loads. -/
theorem blk_agg (c : Dev nD) (t : Fin cfg0.N) (p : Fin 2000) (k : Fin 128) :
    iblk0 V c 0 t (ix2 p k) = V c main_v16 (ix2 (rowOf t p) k) := by
  show V c main_v16 (((cfg0.win 0).blk t).view.emb (ix2 p k)) = _
  rw [emb_agg]

/-- Entry (p, k) of the block of node features point t loads. -/
theorem blk_feat (c : Dev nD) (t : Fin cfg0.N) (p : Fin 2000) (k : Fin 128) :
    iblk0 V c 1 t (ix2 p k) = V c main_arg0 (ix2 (rowOf t p) k) := by
  show V c main_arg0 (((cfg0.win 1).blk t).view.emb (ix2 p k)) = _
  rw [emb_feat]

/-- The aggregated term's weights as every point loads them: the whole matrix. -/
theorem blk_wrel (c : Dev nD) (t : Fin cfg0.N) (k : Fin 128) (q : Fin 256) :
    iblk0 V c 2 t (ix2 k q) = V c main_arg3 (ix2 k q) := by
  show V c main_arg3 (((cfg0.win 2).blk t).view.emb (ix2 k q)) = _
  rw [emb_wrel]

/-- The root term's weights as every point loads them: the whole matrix. -/
theorem blk_wroot (c : Dev nD) (t : Fin cfg0.N) (k : Fin 128) (q : Fin 256) :
    iblk0 V c 3 t (ix2 k q) = V c main_arg5 (ix2 k q) := by
  show V c main_arg5 (((cfg0.win 3).blk t).view.emb (ix2 k q)) = _
  rw [emb_wroot]

/-- The bias as every point loads it: the whole row. -/
theorem blk_bias (c : Dev nD) (t : Fin cfg0.N) (q : Fin 256) :
    iblk0 V c 4 t (ix2 (0 : Fin 1) q) = V c main_v17 (ix2 (0 : Fin 1) q) := by
  show V c main_v17 (((cfg0.win 4).blk t).view.emb (ix2 (0 : Fin 1) q)) = _
  rw [emb_bias]

/-! ## What a point writes back, and the array the 25 blocks fill -/

/-- What point t writes back is block t of the layer of the arrays the launch found. -/
theorem flushed_eq (c : Dev nD) (t : Fin cfg0.N) :
    (dat0 V c).flushed 5 t = ((cfg0.win 5).blk t).view.read (Elt Ideal)
      (Net.conv (V c main_v16) (V c main_arg0) (V c main_arg3) (V c main_arg5) (V c main_v17)) := by
  show (cfg0.win 5).cut (grid0.coords t) ((dat0 V c).after 5 t) = _
  rw [after0_5]
  unfold out0_5
  rw [View.canon_unit_zero zeroOff]
  simp only [View.ld_unit_zero (S := S2000x128) zeroOff, View.ld_unit_zero (S := S128x256) zeroOff,
    View.ld_unit_zero (S := S1x256) zeroOff]
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Net.conv (V c main_v16) (V c main_arg0) (V c main_arg3) (V c main_arg5) (V c main_v17)
        (((cfg0.win 5).blk t).view.emb (ix2 p q))
  rw [pay_apply, emb_out, Net.conv_apply]
  unfold Net.convAt
  simp only [blk_agg, blk_feat, blk_wrel, blk_wroot, blk_bias]

/-- An index of the output array is in point t's block iff each coordinate is in the block's range on its axis. -/
theorem mem_block (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v18).slice (win0_5.rect t)).set ↔ _
  rw [View.set_slice_whole, Rect.mem_set_unit]
  exact Iff.rfl

/-- Every index of the output array is in some point's block: row r is in block r / 2000. -/
theorem covered (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by show (i 0).val / 2000 < 25; omega⟩, rfl⟩
  obtain ⟨-, -, -, -, -, -, -, -, -, -, e0, e1⟩ := blockIndex t
  refine ⟨t, flush0_5 t, ?_⟩
  rw [mem_block]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 256 ≤ (i 1).val ∧ (i 1).val < win0_5.index t (1 : Fin 2) * 256 + 256
    omega

/-- After the first layer's launch its output array holds the layer, entry by entry, of the arrays the launch found. -/
theorem value (c : Dev nD) :
    (dat0 V c).arrAt 5 cfg0.N = Net.conv (V c main_v16) (V c main_arg0) (V c main_arg3) (V c main_arg5) (V c main_v17) :=
  (dat0 V c).arrAt_eq_of_cover 5 _ (fun t _ => flushed_eq V c t) covered

end Cert.KernelIdeal.Region0

end
-- ==== Proof.KRegion1.lean ====
/-
  The second layer's launch, read as mathematics. The grid has 25 points; point t stages rows 2000·t … 2000·t + 1999 of
  the aggregated features and of the first layer's output, the two 256 × 256 weight matrices and the 1 × 256 bias row
  whole, and writes back rows 2000·t … 2000·t + 1999 of the result. The block it stores is, at entry (p, q),
      max ((∑ k, agg (p, k) · W_rel (k, q)) + (∑ k, feat (p, k) · W_root (k, q)) + bias (0, q)) 0,
  which is the layer's entry (2000·t + p, q); the 25 row blocks tile the 50000 rows, so the array after the launch is
  the layer, entry by entry.
-/
import proofs.«152914_j38147899523750_1_alg».proof.Proof.Gen.KernelIdeal.Frame
import proofs.«152914_j38147899523750_1_alg».proof.Proof.Spec
import proofs.«152914_j38147899523750_1_alg».proof.Proof.LibMatmulPlain
import Idealize.ShloMosaic.Lib.Pipeline.Value
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The second layer's contraction record is the plain matrix product's. -/
theorem dims_plain : dot_S2000x256_S256x256_S2000x256_1_0_0_1_n_n = DotDims.plain 2000 256 256 := rfl

/-- The word 0x00000000 is the real number zero. -/
theorem zero_word : (FloatOps.ofBits (F := Ideal) FTy.f32 0x00000000#32 : EReal) = 0 := Ideal.ofBits_zero_f32

/-- Entry (p, q) of the block the body stores: both products are finite sums over the contraction coordinate (format
    changes and casts to the same shape are the identity), the bias row is read at column q, and the maximum with
    the zero word is the maximum with 0. -/
theorem payload_entry (v0 v3 : Vec Ideal S2000x256 .f32) (v6 v8 : Vec Ideal S256x256 .f32) (v13 : Vec Ideal S1x256 .f32)
    (p : Fin 2000) (q : Fin 256) :
    k1_pay1 v0 v3 v6 v8 v13 (ix2 p q)
      = max (((∑ k : Fin 256, v0 (ix2 p k) * v6 (ix2 k q)) + ∑ k : Fin 256, v3 (ix2 p k) * v8 (ix2 k q)) + v13 (ix2 0 q)) 0 := by
  unfold k1_pay1
  rw [maximumf_apply, addf_apply, addf_apply, broadcast_apply, dims_plain,
    MatmulPlain.matmul_zero_apply, MatmulPlain.matmul_zero_apply, broadcastTo_1b_ab_apply, zero_word]
  simp only [truncf_apply, shapeCast_self]

/-! ## The windows' blocks over the grid -/

/-- The offsets (0, 0), as the body's rectangles spell them, are the zero offsets. -/
theorem zero_offsets : (![0, 0] : Fin 2 → Nat) = fun _ => 0 := funext fun a => by fin_cases a <;> rfl

/-- The block index maps, decided over the 25 grid points: the two row-blocked inputs and the output are at row block
    t, column block 0; the two weight matrices and the bias row stay at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of row block t is a row of the 50000-row arrays. -/
theorem row_lt (t : Fin cfg1.N) (p : Fin 2000) : 2000 * t.val + p.val < 50000 := by
  have h : t.val < 25 := lt_of_lt_of_eq t.isLt N_1
  have := p.isLt
  omega

variable (V : (c : Dev nD) → (b : Ref sig .tc) → Buf (Elt Ideal) ((c : Thread nD τ).loc b))

/-! ## Each input block read where the output block's rows are -/

/-- Entry (p, k) of the aggregated features' block at point t is entry (2000·t + p, k) of their array. -/
theorem agg_block_entry (c : Dev nD) (t : Fin cfg1.N) (p : Fin 2000) (k : Fin 256) :
    (iblk1 V c 0 t : Vec Ideal S2000x256 .f32) (ix2 p k)
      = (V c main_v31 : S50000x256.Idx → EReal) (ix2 ⟨2000 * t.val + p.val, row_lt t p⟩ k) := by
  obtain ⟨e0, e1, -⟩ := block_indices t
  show (V c main_v31 : S50000x256.Idx → EReal) (((cfg1.win 0).blk t).view.emb (ix2 p k)) = _
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 256 + 1 * k.val = k.val; omega

/-- Entry (p, k) of the first layer's block at point t is entry (2000·t + p, k) of its array. -/
theorem feat_block_entry (c : Dev nD) (t : Fin cfg1.N) (p : Fin 2000) (k : Fin 256) :
    (iblk1 V c 1 t : Vec Ideal S2000x256 .f32) (ix2 p k)
      = (V c main_v18 : S50000x256.Idx → EReal) (ix2 ⟨2000 * t.val + p.val, row_lt t p⟩ k) := by
  obtain ⟨-, -, e0, e1, -⟩ := block_indices t
  show (V c main_v18 : S50000x256.Idx → EReal) (((cfg1.win 1).blk t).view.emb (ix2 p k)) = _
  refine congrArg _ (funext fun a => Fin.ext ?_)
  match a with
  | ⟨0, _⟩ => show win1_1.index t (0 : Fin 2) * 2000 + 1 * p.val = 2000 * t.val + p.val; omega
  | ⟨1, _⟩ => show win1_1.index t (1 : Fin 2) * 256 + 1 * k.val = k.val; omega

/-- The relation weights' block at every point is the whole matrix. -/
theorem wrel_block_entry (c : Dev nD) (t : Fin cfg1.N) (k q : Fin 256) :
    (iblk1 V c 2 t : Vec Ideal S256x256 .f32) (ix2 k q) = (V c main_arg6 : S256x256.Idx → EReal) (ix2 k q) := by
  obtain ⟨-, -, -, -, e0, e1, -⟩ := block_indices t
  show (V c main_arg6 : S256x256.Idx → EReal) (((cfg1.win 2).blk t).view.emb (ix2 k q)) = _
  refine congrArg _ (funext fun a => Fin.ext ?_)
  match a with
  | ⟨0, _⟩ => show win1_2.index t (0 : Fin 2) * 256 + 1 * k.val = k.val; omega
  | ⟨1, _⟩ => show win1_2.index t (1 : Fin 2) * 256 + 1 * q.val = q.val; omega

/-- The root weights' block at every point is the whole matrix. -/
theorem wroot_block_entry (c : Dev nD) (t : Fin cfg1.N) (k q : Fin 256) :
    (iblk1 V c 3 t : Vec Ideal S256x256 .f32) (ix2 k q) = (V c main_arg8 : S256x256.Idx → EReal) (ix2 k q) := by
  obtain ⟨-, -, -, -, -, -, e0, e1, -⟩ := block_indices t
  show (V c main_arg8 : S256x256.Idx → EReal) (((cfg1.win 3).blk t).view.emb (ix2 k q)) = _
  refine congrArg _ (funext fun a => Fin.ext ?_)
  match a with
  | ⟨0, _⟩ => show win1_3.index t (0 : Fin 2) * 256 + 1 * k.val = k.val; omega
  | ⟨1, _⟩ => show win1_3.index t (1 : Fin 2) * 256 + 1 * q.val = q.val; omega

/-- The bias row's block at every point is the whole row. -/
theorem bias_block_entry (c : Dev nD) (t : Fin cfg1.N) (q : Fin 256) :
    (iblk1 V c 4 t : Vec Ideal S1x256 .f32) (ix2 0 q) = (V c main_v32 : S1x256.Idx → EReal) (ix2 0 q) := by
  obtain ⟨-, -, -, -, -, -, -, -, e0, e1, -⟩ := block_indices t
  show (V c main_v32 : S1x256.Idx → EReal) (((cfg1.win 4).blk t).view.emb (ix2 0 q)) = _
  refine congrArg _ (funext fun a => Fin.ext ?_)
  match a with
  | ⟨0, _⟩ => show win1_4.index t (0 : Fin 2) * 1 + 1 * 0 = 0; omega
  | ⟨1, _⟩ => show win1_4.index t (1 : Fin 2) * 256 + 1 * q.val = q.val; omega

/-! ## What a point writes back -/

/-- The block written back at point t is block t of the layer of the arrays the launch found: entry (p, q) of the
    stored block is the layer's entry (2000·t + p, q), each input block read at the output block's rows. -/
theorem written_block (c : Dev nD) (t : Fin cfg1.N) :
    (dat1 V c).flushed 5 t = ((cfg1.win 5).blk t).view.read (Elt Ideal)
      (Net.conv (V c main_v31) (V c main_v18) (V c main_arg6) (V c main_arg8) (V c main_v32)) := by
  show (cfg1.win 5).cut (grid1.coords t) ((dat1 V c).after 5 t) = _
  rw [after1_5]
  unfold out1_5
  rw [View.canon_unit_zero zero_offsets]
  simp only [View.ld_unit_zero (S := S2000x256) zero_offsets, View.ld_unit_zero (S := S256x256) zero_offsets,
    View.ld_unit_zero (S := S1x256) zero_offsets]
  refine funext fun (j : S2000x256.Idx) => ?_
  obtain ⟨p, q, rfl⟩ : ∃ (p : Fin 2000) (q : Fin 256), j = ix2 p q := ⟨j 0, j 1, eq_ix2 j⟩
  obtain ⟨-, -, -, -, -, -, -, -, -, -, e0, e1⟩ := block_indices t
  have erow : ((cfg1.win 5).blk t).view.emb (ix2 p q) = (ix2 ⟨2000 * t.val + p.val, row_lt t p⟩ q : S50000x256.Idx) :=
    funext fun a => Fin.ext (by
      match a with
      | ⟨0, _⟩ => show win1_5.index t (0 : Fin 2) * 2000 + 1 * p.val = 2000 * t.val + p.val; omega
      | ⟨1, _⟩ => show win1_5.index t (1 : Fin 2) * 256 + 1 * q.val = q.val; omega)
  show k1_pay1 (iblk1 V c 0 t) (iblk1 V c 1 t) (iblk1 V c 2 t) (iblk1 V c 3 t) (iblk1 V c 4 t) (ix2 p q)
    = Net.conv (V c main_v31) (V c main_v18) (V c main_arg6) (V c main_arg8) (V c main_v32) (((cfg1.win 5).blk t).view.emb (ix2 p q))
  rw [erow, payload_entry, Net.conv_apply]
  unfold Net.convAt
  simp only [agg_block_entry, feat_block_entry, wrel_block_entry, wroot_block_entry, bias_block_entry]

/-! ## From the blocks to the array -/

/-- An index of the output array is in point t's block iff each coordinate is in the block's range on its axis. -/
theorem in_block_iff (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v33).slice (win1_5.rect t)).set ↔ _
  rw [View.set_slice_whole, Rect.mem_set_unit]
  exact Iff.rfl

/-- The 25 row blocks cover the output array: row r is in the block of point r / 2000, and every point writes back. -/
theorem covered (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have ht : (i 0).val / 2000 < cfg1.N := lt_of_lt_of_eq (by omega : (i 0).val / 2000 < 25) N_1.symm
  refine ⟨⟨(i 0).val / 2000, ht⟩, flush1_5 _, ?_⟩
  obtain ⟨-, -, -, -, -, -, -, -, -, -, e0, e1⟩ := block_indices ⟨(i 0).val / 2000, ht⟩
  have e0' : win1_5.index ⟨(i 0).val / 2000, ht⟩ (0 : Fin 2) = (i 0).val / 2000 := e0
  rw [in_block_iff]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    omega
  | ⟨1, _⟩ =>
    show win1_5.index ⟨(i 0).val / 2000, ht⟩ (1 : Fin 2) * 256 ≤ (i 1).val
      ∧ (i 1).val < win1_5.index ⟨(i 0).val / 2000, ht⟩ (1 : Fin 2) * 256 + 256
    omega

/-- After the second layer's launch its output array holds the layer, entry by entry, of the arrays the launch found. -/
theorem value (c : Dev nD) :
    (dat1 V c).arrAt 5 cfg1.N = Net.conv (V c main_v31) (V c main_v18) (V c main_arg6) (V c main_arg8) (V c main_v32) :=
  (dat1 V c).arrAt_eq_of_cover 5 _ (fun t _ => written_block V c t) covered

end Cert.KernelIdeal.Region1

end
-- ==== Proof.KRegion2.lean ====
import proofs.«152914_j38147899523750_1_alg».proof.Proof.Gen.KernelIdeal.Frame
import proofs.«152914_j38147899523750_1_alg».proof.Proof.Spec
import proofs.«152914_j38147899523750_1_alg».proof.Proof.LibMatmulPlain
import Idealize.ShloMosaic.Lib.Pipeline.Value
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The head's arithmetic on one block of 2000 rows -/

/-- The word 0xFF800000 is −∞, the bottom of the extended reals. -/
theorem negInf_word : Ideal.ofBits .f32 0xFF800000#32 = (⊥ : EReal) := by simp [Ideal.ofBits, Ideal.ieee]

/-- A length-a vector laid out as one column reads, at (p, u), the vector at p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column repeated along each row reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduction along the columns inserts the column coordinate after the row coordinate. -/
theorem lift_row (p : Fin 2000) (j : Fin 40) : reduces_S2000x40_S2000.lift (ix1 p) j = ix2 p j := by
  funext a; apply Fin.ext
  match a with
  | ⟨0, _⟩ => rfl
  | ⟨1, _⟩ => rfl

/-- A row's largest entry: the maximum-reduction along the columns, at row p, is the fold of max from −∞. -/
theorem rowMax_apply (v : FVec Ideal S2000x40 .f32) (hφ : FKind.Formats .f32)
    (hacc : (0xFF800000#32 : BitVec FTy.f32.bits) = FKind.maximumf.neutral .f32 hφ) (p : Fin 2000) :
    multiReduction (F := Ideal) .maximumf [1] S2000 v 0xFF800000#32 reduces_S2000x40_S2000 hφ hacc (ix1 p)
      = (Finset.univ : Finset (Fin 40)).fold max ⊥ (fun j => v (ix2 p j)) := by
  refine (Ideal.multiReduction_maximumf_single v 0xFF800000#32 reduces_S2000x40_S2000 hφ hacc (ix1 p)).trans ?_
  show (Finset.univ : Finset (Fin 40)).fold max (Ideal.ofBits .f32 0xFF800000#32) (v ∘ reduces_S2000x40_S2000.lift (ix1 p)) = _
  rw [negInf_word]
  exact congrArg (fun f => (Finset.univ : Finset (Fin 40)).fold max ⊥ f) (funext fun j => congrArg v (lift_row p j))

/-- A row's sum: the add-reduction along the columns, at row p. -/
theorem rowSum_apply (v : FVec Ideal S2000x40 .f32) (hφ : FKind.Formats .f32)
    (hacc : (0x00000000#32 : BitVec FTy.f32.bits) = FKind.add.neutral .f32 hφ) (p : Fin 2000) :
    multiReduction (F := Ideal) .add [1] S2000 v 0x00000000#32 reduces_S2000x40_S2000 hφ hacc (ix1 p)
      = ∑ k : Fin 40, v (ix2 p k) := by
  refine (Ideal.multiReduction_add_single v 0x00000000#32 reduces_S2000x40_S2000 hφ hacc (ix1 p)).trans ?_
  show ∑ k : Fin 40, v (reduces_S2000x40_S2000.lift (ix1 p) k) = _
  exact Finset.sum_congr rfl fun k _ => congrArg v (lift_row p k)

/-- The product of a block of rows by a whole weight matrix, into zero, entry by entry (the change of format is the identity). -/
theorem matmul_block_apply (l : FVec Ideal S2000x256 .f32) (r : FVec Ideal S256x40 .f32) (p : Fin 2000) (j : Fin 40) :
    matmul dot_S2000x256_S256x40_S2000x40_1_0_0_1_n_n none
      (truncf .bf16 (shapeCast S2000x256 l shapeCasts_S2000x256_S2000x256) bitsLt_bf16_f32)
      (truncf .bf16 (shapeCast S256x40 r shapeCasts_S256x40_S256x40) bitsLt_bf16_f32)
      (constant S2000x40 .f32 0x00000000#32) (ix2 p j)
    = ∑ k : Fin 256, l (ix2 p k) * r (ix2 k j) := by
  rw [shapeCast_self, shapeCast_self]
  exact MatmulPlain.matmul_zero_apply (M := 2000) (K := 256) (N := 40) none
    (truncf .bf16 l bitsLt_bf16_f32) (truncf .bf16 r bitsLt_bf16_f32) p j

/-- The block's logits: both products added, and the bias row added to every row. -/
def logits (x0 x1 : FVec Ideal S2000x256 .f32) (w0 w1 : FVec Ideal S256x40 .f32) (b : FVec Ideal S1x40 .f32) : FVec Ideal S2000x40 .f32 :=
  addf (addf
      (matmul dot_S2000x256_S256x40_S2000x40_1_0_0_1_n_n none
        (truncf .bf16 (shapeCast S2000x256 x0 shapeCasts_S2000x256_S2000x256) bitsLt_bf16_f32)
        (truncf .bf16 (shapeCast S256x40 w0 shapeCasts_S256x40_S256x40) bitsLt_bf16_f32)
        (constant S2000x40 .f32 0x00000000#32))
      (matmul dot_S2000x256_S256x40_S2000x40_1_0_0_1_n_n none
        (truncf .bf16 (shapeCast S2000x256 x1 shapeCasts_S2000x256_S2000x256) bitsLt_bf16_f32)
        (truncf .bf16 (shapeCast S256x40 w1 shapeCasts_S256x40_S256x40) bitsLt_bf16_f32)
        (constant S2000x40 .f32 0x00000000#32)))
    (broadcastTo S2000x40 (shapeCast S1x40 b shapeCasts_S1x40_S1x40) broadcasts_S1x40_S2000x40)

/-- Each row minus its largest entry. -/
def shifted (v : FVec Ideal S2000x40 .f32) : FVec Ideal S2000x40 .f32 :=
  subf v (broadcastTo S2000x40 (shapeCast S2000x1
    (multiReduction .maximumf [1] S2000 v 0xFF800000#32 reduces_S2000x40_S2000 (.inl rfl) rfl)
    shapeCasts_S2000_S2000x1) broadcasts_S2000x1_S2000x40)

/-- Each row minus the logarithm of the sum of its exponentials. -/
def normalized (s : FVec Ideal S2000x40 .f32) : FVec Ideal S2000x40 .f32 :=
  subf s (broadcastTo S2000x40 (log (shapeCast S2000x1
    (multiReduction .add [1] S2000 (exp s) 0x00000000#32 reduces_S2000x40_S2000 (.inl rfl) rfl)
    shapeCasts_S2000_S2000x1)) broadcasts_S2000x1_S2000x40)

/-- The body's payload is the log-softmax of the logits, stage by stage. -/
theorem pay_eq (x0 x1 : FVec Ideal S2000x256 .f32) (w0 w1 : FVec Ideal S256x40 .f32) (b : FVec Ideal S1x40 .f32) :
    k2_pay1 (F := Ideal) x0 x1 w0 w1 b = normalized (shifted (logits x0 x1 w0 w1 b)) := rfl

/-- Entry (p, j) of the block's logits: row p of each block times column j of its weights, plus the bias at j. -/
theorem logits_apply (x0 x1 : FVec Ideal S2000x256 .f32) (w0 w1 : FVec Ideal S256x40 .f32) (b : FVec Ideal S1x40 .f32)
    (p : Fin 2000) (j : Fin 40) :
    logits x0 x1 w0 w1 b (ix2 p j)
      = ((∑ k : Fin 256, x0 (ix2 p k) * w0 (ix2 k j)) + ∑ k : Fin 256, x1 (ix2 p k) * w1 (ix2 k j)) + b (ix2 0 j) := by
  unfold logits
  rw [addf_apply, addf_apply, matmul_block_apply, matmul_block_apply, shapeCast_self]
  exact congrArg _ (broadcastTo_1b_ab_apply b broadcasts_S1x40_S2000x40 p j)

/-- Entry (p, q) of the shifted block: the entry minus its row's largest entry. -/
theorem shifted_apply (v : FVec Ideal S2000x40 .f32) (p : Fin 2000) (q : Fin 40) :
    shifted v (ix2 p q) = v (ix2 p q) - (Finset.univ : Finset (Fin 40)).fold max ⊥ (fun j => v (ix2 p j)) := by
  unfold shifted
  rw [subf_apply]
  refine congrArg _ ?_
  refine (broadcastTo_a1_ab_apply _ broadcasts_S2000x1_S2000x40 p q).trans ?_
  refine (shapeCast_a_a1_apply _ shapeCasts_S2000_S2000x1 p 0).trans ?_
  exact rowMax_apply v _ _ p

/-- Entry (p, q) of the normalized block: the entry minus the logarithm of the sum of its row's exponentials. -/
theorem normalized_apply (s : FVec Ideal S2000x40 .f32) (p : Fin 2000) (q : Fin 40) :
    normalized s (ix2 p q) = s (ix2 p q) - Ideal.log (∑ k : Fin 40, Ideal.exp (s (ix2 p k))) := by
  unfold normalized
  rw [subf_apply]
  refine congrArg _ ?_
  refine (broadcastTo_a1_ab_apply _ broadcasts_S2000x1_S2000x40 p q).trans ?_
  show Ideal.log (shapeCast S2000x1 _ shapeCasts_S2000_S2000x1 (ix2 p 0)) = _
  refine congrArg Ideal.log ?_
  refine (shapeCast_a_a1_apply _ shapeCasts_S2000_S2000x1 p 0).trans ?_
  exact rowSum_apply (exp s) _ _ p

/-- THE PAYLOAD AT AN ENTRY: where rows p of the two loaded blocks are rows n of the two layers' outputs, and the loaded
    weights and bias are the whole arrays, the body stores the head's entry (n, q). -/
theorem pay_apply (x0 x1 : FVec Ideal S2000x256 .f32) (w0 w1 : FVec Ideal S256x40 .f32) (b : FVec Ideal S1x40 .f32)
    (X1 X2 : Net.Mat 50000 256) (W0 W1 : Net.Mat 256 40) (B : Net.Mat 1 40) (p : Fin 2000) (q : Fin 40) (n : Fin 50000)
    (h1 : ∀ k : Fin 256, x0 (ix2 p k) = X1 (ix2 n k)) (h2 : ∀ k : Fin 256, x1 (ix2 p k) = X2 (ix2 n k))
    (hw0 : w0 = W0) (hw1 : w1 = W1) (hb : b = B) :
    k2_pay1 (F := Ideal) x0 x1 w0 w1 b (ix2 p q) = Net.headAt X1 X2 W0 W1 B n q := by
  subst hw0 hw1 hb
  have hl : ∀ j : Fin 40, logits x0 x1 w0 w1 b (ix2 p j) = Net.logitAt X1 X2 w0 w1 b n j := fun j => by
    rw [logits_apply]; unfold Net.logitAt; simp only [h1, h2]
  have hs : ∀ j : Fin 40, shifted (logits x0 x1 w0 w1 b) (ix2 p j) = Net.shiftAt X1 X2 w0 w1 b n j := fun j => by
    rw [shifted_apply]; unfold Net.shiftAt Net.rowMax; simp only [hl]
  rw [pay_eq, normalized_apply]
  unfold Net.headAt
  simp only [hs]

/-! ## From the 25 blocks of rows to the array -/

/-- The zero offsets, as the constant function. -/
theorem zero_offsets : (![0, 0] : Fin 2 → Nat) = fun _ => 0 := funext fun a => by fin_cases a <;> rfl

/-- The windows' index maps over the grid: at point t the two layers' outputs and the result are at block (t, 0), the two
    weight halves and the bias at block (0, 0). -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- WHAT POINT t WRITES BACK is block t — rows 2000·t … 2000·t + 1999 — of the head of the arrays the launch found. -/
theorem flushed_eq (c : Dev nD) (t : Fin cfg2.N) :
    (dat2 V c).flushed 5 t = ((cfg2.win 5).blk t).view.read (Elt Ideal)
      (Net.head (V c main_v18) (V c main_v33) (V c main_v34) (V c main_v35) (V c main_v36)) := by
  show (cfg2.win 5).cut (grid2.coords t) ((dat2 V c).after 5 t) = _
  rw [after2_5]
  unfold out2_5
  rw [View.canon_unit_zero zero_offsets]
  simp only [View.ld_unit_zero (S := S2000x256) zero_offsets, View.ld_unit_zero (S := S256x40) zero_offsets,
    View.ld_unit_zero (S := S1x40) zero_offsets]
  obtain ⟨e00, e01, e10, e11, e20, e21, e30, e31, e40, e41, e50, e51⟩ := block_indices t
  have ht : t.val < 25 := lt_of_lt_of_eq t.isLt (N_2 : cfg2.N = 25)
  funext j
  obtain ⟨p, q, rfl⟩ : ∃ (p : Fin 2000) (q : Fin 40), j = ix2 p q := ⟨j 0, j 1, eq_ix2 j⟩
  have hp : p.val < 2000 := p.isLt
  show k2_pay1 (F := Ideal) (iblk2 V c 0 t) (iblk2 V c 1 t) (iblk2 V c 2 t) (iblk2 V c 3 t) (iblk2 V c 4 t) (ix2 p q)
    = Net.head (V c main_v18) (V c main_v33) (V c main_v34) (V c main_v35) (V c main_v36) (((cfg2.win 5).blk t).view.emb (ix2 p q))
  have hemb : ((cfg2.win 5).blk t).view.emb (ix2 p q) = ix2 (⟨2000 * t.val + p.val, by omega⟩ : Fin 50000) q := by
    funext a; apply Fin.ext
    match a with
    | ⟨0, _⟩ => show win2_5.index t (0 : Fin 2) * 2000 + 1 * p.val = 2000 * t.val + p.val; omega
    | ⟨1, _⟩ => show win2_5.index t (1 : Fin 2) * 40 + 1 * q.val = q.val; omega
  rw [hemb, Net.head_apply]
  refine pay_apply _ _ _ _ _ _ _ _ _ _ p q _ (fun k => ?_) (fun k => ?_) (funext fun y => ?_) (funext fun y => ?_) (funext fun y => ?_)
  · show V c main_v18 (((cfg2.win 0).blk t).view.emb (ix2 p k)) = V c main_v18 (ix2 (⟨2000 * t.val + p.val, by omega⟩ : Fin 50000) k)
    refine congrArg _ (funext fun a => Fin.ext ?_)
    match a with
    | ⟨0, _⟩ => show win2_0.index t (0 : Fin 2) * 2000 + 1 * p.val = 2000 * t.val + p.val; omega
    | ⟨1, _⟩ => show win2_0.index t (1 : Fin 2) * 256 + 1 * k.val = k.val; omega
  · show V c main_v33 (((cfg2.win 1).blk t).view.emb (ix2 p k)) = V c main_v33 (ix2 (⟨2000 * t.val + p.val, by omega⟩ : Fin 50000) k)
    refine congrArg _ (funext fun a => Fin.ext ?_)
    match a with
    | ⟨0, _⟩ => show win2_1.index t (0 : Fin 2) * 2000 + 1 * p.val = 2000 * t.val + p.val; omega
    | ⟨1, _⟩ => show win2_1.index t (1 : Fin 2) * 256 + 1 * k.val = k.val; omega
  · show V c main_v34 (((cfg2.win 2).blk t).view.emb y) = V c main_v34 y
    refine congrArg _ (funext fun a => Fin.ext ?_)
    match a with
    | ⟨0, _⟩ => show win2_2.index t (0 : Fin 2) * 256 + 1 * (y 0).val = (y 0).val; omega
    | ⟨1, _⟩ => show win2_2.index t (1 : Fin 2) * 40 + 1 * (y 1).val = (y 1).val; omega
  · show V c main_v35 (((cfg2.win 3).blk t).view.emb y) = V c main_v35 y
    refine congrArg _ (funext fun a => Fin.ext ?_)
    match a with
    | ⟨0, _⟩ => show win2_3.index t (0 : Fin 2) * 256 + 1 * (y 0).val = (y 0).val; omega
    | ⟨1, _⟩ => show win2_3.index t (1 : Fin 2) * 40 + 1 * (y 1).val = (y 1).val; omega
  · show V c main_v36 (((cfg2.win 4).blk t).view.emb y) = V c main_v36 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 40 + 1 * (y 1).val = (y 1).val; omega

/-- An entry of the result array is in point t's block iff each coordinate is in the block's range on its axis. -/
theorem mem_block (t : Fin cfg2.N) (i : S50000x40.Idx) :
    i ∈ ((cfg2.win 5).blk t).view.set ↔ ∀ a : Fin 2, win2_5.index t a * S2000x40.size a ≤ (i a).val
      ∧ (i a).val < win2_5.index t a * S2000x40.size a + S2000x40.size a := by
  show i ∈ ((View.whole main_v37).slice (win2_5.rect t)).set ↔ _
  rw [View.set_slice_whole, Rect.mem_set_unit]
  exact Iff.rfl

/-- THE 25 BLOCKS COVER THE ARRAY: row r is in the block of point r / 2000. -/
theorem covered (i : S50000x40.Idx) :
    ∃ t : Fin cfg2.N, (cfg2.win 5).flush t = true ∧ i ∈ ((cfg2.win 5).blk t).view.set := by
  have hi0 : (i 0).val < 50000 := (i 0).isLt
  have hi1 : (i 1).val < 40 := (i 1).isLt
  have hN : cfg2.N = 25 := N_2
  have hlt : (i 0).val / 2000 < cfg2.N := by rw [hN]; omega
  obtain ⟨-, -, -, -, -, -, -, -, -, -, e50, e51⟩ := block_indices ⟨(i 0).val / 2000, hlt⟩
  refine ⟨⟨(i 0).val / 2000, hlt⟩, flush2_5 _, ?_⟩
  rw [mem_block]
  intro a
  match a with
  | ⟨0, _⟩ =>
    show win2_5.index ⟨(i 0).val / 2000, hlt⟩ (0 : Fin 2) * 2000 ≤ (i 0).val
      ∧ (i 0).val < win2_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win2_5.index ⟨(i 0).val / 2000, hlt⟩ (1 : Fin 2) * 40 ≤ (i 1).val
      ∧ (i 1).val < win2_5.index ⟨(i 0).val / 2000, hlt⟩ (1 : Fin 2) * 40 + 40
    omega

/-- After the head's launch its output array holds the row-wise log-softmax of the logits of the arrays the launch found. -/
theorem value (c : Dev nD) :
    (dat2 V c).arrAt 5 cfg2.N = Net.head (V c main_v18) (V c main_v33) (V c main_v34) (V c main_v35) (V c main_v36) :=
  (dat2 V c).arrAt_eq_of_cover 5 (Net.head (V c main_v18) (V c main_v33) (V c main_v34) (V c main_v35) (V c main_v36))
    (fun t _ => flushed_eq V c t) (covered)

end Cert.KernelIdeal.Region2

end
-- ==== Proof.KHost.lean ====
import proofs.«152914_j38147899523750_1_alg».proof.Proof.Gen.KernelIdeal.Frame
import proofs.«152914_j38147899523750_1_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.Host

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- No operation of the named stretch writes the buffer: each operation writes one buffer, and it is another one. -/
local macro "not_written " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Layout operations at an index: one row, and the two halves of the rows -/

/-- A length-`n` vector laid out as a `1 × n` matrix: entry (0, j) is entry j (same row-major position). -/
theorem shapeCast_asRow {n : ℕ} (x : Net.Vct n) (h : (⟨1, ![n]⟩ : Shape).ShapeCasts ⟨2, ![1, n]⟩) :
    shapeCast ⟨2, ![1, n]⟩ x h = Net.asRow x := by
  funext i
  show shapeCast _ x h i = x (ix1 (i 1))
  refine shapeCast_apply x h i (ix1 (i 1)) ?_
  rw [Shape.rowMajor_val_one, Shape.rowMajor_val_two]
  have h0 : (i 0).val = 0 := by have := idx2_lt0 i; omega
  show (i 1).val = (i 0).val * n + (i 1).val
  rw [h0, Nat.zero_mul, Nat.zero_add]

/-- Rows 0 … 255 of a 512-row matrix: row r of the slice is row r. -/
theorem slice_top (w : Net.Mat 512 40) (h : (⟨2, ![512, 40]⟩ : Shape).Slices ![0, 0] ⟨2, ![256, 40]⟩) :
    extractStridedSlice ⟨2, ![256, 40]⟩ ![0, 0] w h = Net.top w := by
  funext j
  show extractStridedSlice _ _ w h j = w (ix2 (Fin.castAdd 256 (j 0 : Fin 256)) (j 1))
  refine extractStridedSlice_apply ![0, 0] w h j _ fun a => ?_
  match a with
  | ⟨0, _⟩ => show (j 0).val = 0 + (j 0).val; omega
  | ⟨1, _⟩ => show (j 1).val = 0 + (j 1).val; omega

/-- Rows 256 … 511 of a 512-row matrix: row r of the slice is row 256 + r. -/
theorem slice_bot (w : Net.Mat 512 40) (h : (⟨2, ![512, 40]⟩ : Shape).Slices ![256, 0] ⟨2, ![256, 40]⟩) :
    extractStridedSlice ⟨2, ![256, 40]⟩ ![256, 0] w h = Net.bot w := by
  funext j
  show extractStridedSlice _ _ w h j = w (ix2 (Fin.natAdd 256 (j 0 : Fin 256)) (j 1))
  refine extractStridedSlice_apply ![256, 0] w h j _ fun a => ?_
  match a with
  | ⟨0, _⟩ => show 256 + (j 0).val = 256 + (j 0).val; rfl
  | ⟨1, _⟩ => show (j 1).val = 0 + (j 1).val; omega

/-! ## A buffer nothing writes keeps its launch contents through the stretches and the regions before it -/

theorem W2_keep (c : Dev nD) (b : Ref sig .tc) (hw0 : ∀ w, Pipeline.arrRef spec0 w ≠ b)
    (h0 : ∀ op ∈ (hostOps0 (F := Ideal)), Proc.devRef .tc b ∉ op.writes) :
    W2 m ρ c (Proc.devRef .tc b) = m ((c : Thread nD τ).loc b) :=
  (W2_of_ne m ρ c b hw0).trans (StableHlo.after_of_forall_not_mem (b := Proc.devRef .tc b) _ _ h0)

theorem W3_keep (c : Dev nD) (b : Ref sig .tc) (hw0 : ∀ w, Pipeline.arrRef spec0 w ≠ b)
    (h0 : ∀ op ∈ (hostOps0 (F := Ideal)), Proc.devRef .tc b ∉ op.writes)
    (h1 : ∀ op ∈ (hostOps1 (F := Ideal)), Proc.devRef .tc b ∉ op.writes) :
    W3 m ρ c (Proc.devRef .tc b) = m ((c : Thread nD τ).loc b) :=
  (StableHlo.after_of_forall_not_mem (b := Proc.devRef .tc b) _ _ h1).trans (W2_keep m ρ c b hw0 h0)

theorem W4_keep (c : Dev nD) (b : Ref sig .tc) (hw0 : ∀ w, Pipeline.arrRef spec0 w ≠ b) (hw1 : ∀ w, Pipeline.arrRef spec1 w ≠ b)
    (h0 : ∀ op ∈ (hostOps0 (F := Ideal)), Proc.devRef .tc b ∉ op.writes)
    (h1 : ∀ op ∈ (hostOps1 (F := Ideal)), Proc.devRef .tc b ∉ op.writes) :
    W4 m ρ c (Proc.devRef .tc b) = m ((c : Thread nD τ).loc b) :=
  (W4_of_ne m ρ c b hw1).trans (W3_keep m ρ c b hw0 h0 h1)

/-! ## What the first layer's launch finds -/

theorem V1_v16 (c : Dev nD) : V1 m ρ c main_v16
    = Net.agg128 (F := Ideal) (m ((c : Thread nD τ).loc main_arg0)) (Net.srcOf (F := Ideal) (m ((c : Thread nD τ).loc main_arg1)))
        (Net.dstOf (F := Ideal) (m ((c : Thread nD τ).loc main_arg1))) (m ((c : Thread nD τ).loc main_arg2)) := by
  show StableHlo.after hostOps0 _ (Proc.devRef .tc main_v16) = _
  after_results_simp
  rfl
theorem V1_arg0 (c : Dev nD) : V1 m ρ c main_arg0 = m ((c : Thread nD τ).loc main_arg0) :=
  StableHlo.after_of_forall_not_mem (b := Proc.devRef .tc main_arg0) _ _ (by not_written hostOps0)
theorem V1_arg3 (c : Dev nD) : V1 m ρ c main_arg3 = m ((c : Thread nD τ).loc main_arg3) :=
  StableHlo.after_of_forall_not_mem (b := Proc.devRef .tc main_arg3) _ _ (by not_written hostOps0)
theorem V1_arg5 (c : Dev nD) : V1 m ρ c main_arg5 = m ((c : Thread nD τ).loc main_arg5) :=
  StableHlo.after_of_forall_not_mem (b := Proc.devRef .tc main_arg5) _ _ (by not_written hostOps0)
theorem V1_v17 (c : Dev nD) : V1 m ρ c main_v17 = Net.asRow (m ((c : Thread nD τ).loc main_arg4)) := by
  show StableHlo.after hostOps0 _ (Proc.devRef .tc main_v17) = _
  after_results_simp
  exact shapeCast_asRow (n := 256) _ shapeCasts_S256_S1x256

/-! ## What the second layer's launch finds -/

/-- The first stretch leaves the edges' sources in its flattened row-0 buffer. -/
theorem W1_v1 (c : Dev nD) : W1 m ρ c (Proc.devRef .tc main_v1) = Net.srcOf (F := Ideal) (m ((c : Thread nD τ).loc main_arg1)) := by
  show StableHlo.after hostOps0 _ (Proc.devRef .tc main_v1) = _
  after_results_simp
  rfl
/-- The first stretch leaves the edges' destinations in its flattened row-1 buffer. -/
theorem W1_v3 (c : Dev nD) : W1 m ρ c (Proc.devRef .tc main_v3) = Net.dstOf (F := Ideal) (m ((c : Thread nD τ).loc main_arg1)) := by
  show StableHlo.after hostOps0 _ (Proc.devRef .tc main_v3) = _
  after_results_simp
  rfl
theorem W2_v1 (c : Dev nD) : W2 m ρ c (Proc.devRef .tc main_v1) = Net.srcOf (F := Ideal) (m ((c : Thread nD τ).loc main_arg1)) :=
  (W2_of_ne m ρ c main_v1 (by decide)).trans (W1_v1 m ρ c)
theorem W2_v3 (c : Dev nD) : W2 m ρ c (Proc.devRef .tc main_v3) = Net.dstOf (F := Ideal) (m ((c : Thread nD τ).loc main_arg1)) :=
  (W2_of_ne m ρ c main_v3 (by decide)).trans (W1_v3 m ρ c)
theorem W2_arg2 (c : Dev nD) : W2 m ρ c (Proc.devRef .tc main_arg2) = m ((c : Thread nD τ).loc main_arg2) :=
  W2_keep m ρ c main_arg2 (by decide) (by not_written hostOps0)
theorem W2_arg7 (c : Dev nD) : W2 m ρ c (Proc.devRef .tc main_arg7) = m ((c : Thread nD τ).loc main_arg7) :=
  W2_keep m ρ c main_arg7 (by decide) (by not_written hostOps0)

theorem V3_v31 (c : Dev nD) : V3 m ρ c main_v31
    = Net.agg256 (F := Ideal) (W2 m ρ c (Proc.devRef .tc main_v18)) (Net.srcOf (F := Ideal) (m ((c : Thread nD τ).loc main_arg1)))
        (Net.dstOf (F := Ideal) (m ((c : Thread nD τ).loc main_arg1))) (m ((c : Thread nD τ).loc main_arg2)) := by
  show StableHlo.after hostOps1 _ (Proc.devRef .tc main_v31) = _
  after_results_simp
  rw [W2_v1, W2_v3, W2_arg2]
  rfl
theorem V3_v18 (c : Dev nD) : V3 m ρ c main_v18 = W2 m ρ c (Proc.devRef .tc main_v18) :=
  StableHlo.after_of_forall_not_mem (b := Proc.devRef .tc main_v18) _ _ (by not_written hostOps1)
theorem V3_arg6 (c : Dev nD) : V3 m ρ c main_arg6 = m ((c : Thread nD τ).loc main_arg6) :=
  W3_keep m ρ c main_arg6 (by decide) (by not_written hostOps0) (by not_written hostOps1)
theorem V3_arg8 (c : Dev nD) : V3 m ρ c main_arg8 = m ((c : Thread nD τ).loc main_arg8) :=
  W3_keep m ρ c main_arg8 (by decide) (by not_written hostOps0) (by not_written hostOps1)
theorem V3_v32 (c : Dev nD) : V3 m ρ c main_v32 = Net.asRow (m ((c : Thread nD τ).loc main_arg7)) := by
  show StableHlo.after hostOps1 _ (Proc.devRef .tc main_v32) = _
  after_results_simp
  rw [W2_arg7]
  exact shapeCast_asRow (n := 256) _ shapeCasts_S256_S1x256

/-! ## What the head's launch finds -/

theorem W4_arg9 (c : Dev nD) : W4 m ρ c (Proc.devRef .tc main_arg9) = m ((c : Thread nD τ).loc main_arg9) :=
  W4_keep m ρ c main_arg9 (by decide) (by decide) (by not_written hostOps0) (by not_written hostOps1)
theorem W4_arg10 (c : Dev nD) : W4 m ρ c (Proc.devRef .tc main_arg10) = m ((c : Thread nD τ).loc main_arg10) :=
  W4_keep m ρ c main_arg10 (by decide) (by decide) (by not_written hostOps0) (by not_written hostOps1)

theorem V5_v18 (c : Dev nD) : V5 m ρ c main_v18 = W2 m ρ c (Proc.devRef .tc main_v18) :=
  calc V5 m ρ c main_v18
    _ = W4 m ρ c (Proc.devRef .tc main_v18) :=
        StableHlo.after_of_forall_not_mem (b := Proc.devRef .tc main_v18) _ _ (by not_written hostOps2)
    _ = V3 m ρ c main_v18 := (W4_arr m ρ c 1).trans (((dat1 (V3 m ρ) c).arrAt_in 1 rfl _).trans (A_eq1 (V3 m ρ) c 1))
    _ = W2 m ρ c (Proc.devRef .tc main_v18) := V3_v18 m ρ c
theorem V5_v33 (c : Dev nD) : V5 m ρ c main_v33 = W4 m ρ c (Proc.devRef .tc main_v33) :=
  StableHlo.after_of_forall_not_mem (b := Proc.devRef .tc main_v33) _ _ (by not_written hostOps2)
theorem V5_v34 (c : Dev nD) : V5 m ρ c main_v34 = Net.top (m ((c : Thread nD τ).loc main_arg9)) := by
  show StableHlo.after hostOps2 _ (Proc.devRef .tc main_v34) = _
  after_results_simp
  rw [W4_arg9]
  exact slice_top _ slices_S512x40_S256x40_0_0
theorem V5_v35 (c : Dev nD) : V5 m ρ c main_v35 = Net.bot (m ((c : Thread nD τ).loc main_arg9)) := by
  show StableHlo.after hostOps2 _ (Proc.devRef .tc main_v35) = _
  after_results_simp
  rw [W4_arg9]
  exact slice_bot _ slices_S512x40_S256x40_256_0
theorem V5_v36 (c : Dev nD) : V5 m ρ c main_v36 = Net.asRow (m ((c : Thread nD τ).loc main_arg10)) := by
  show StableHlo.after hostOps2 _ (Proc.devRef .tc main_v36) = _
  after_results_simp
  rw [W4_arg10]
  exact shapeCast_asRow (n := 40) _ shapeCasts_S40_S1x40

end Cert.KernelIdeal.Host

end
-- ==== Proof.KValue.lean ====
import proofs.«152914_j38147899523750_1_alg».proof.Proof.KRegion0
import proofs.«152914_j38147899523750_1_alg».proof.Proof.KRegion1
import proofs.«152914_j38147899523750_1_alg».proof.Proof.KRegion2
import proofs.«152914_j38147899523750_1_alg».proof.Proof.KHost

set_option maxRecDepth 16384

noncomputable section

namespace Cert.KernelIdeal.Value

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The first layer's output array, as the later launches find it, is the first layer of the arguments. -/
theorem x1_eq (c : Dev nD) : W2 m ρ c (Proc.devRef .tc main_v18)
    = Net.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h := (W2_arr m ρ c 5).trans (Region0.value (V1 m ρ) c)
  rw [Host.V1_v16, Host.V1_arg0, Host.V1_arg3, Host.V1_arg5, Host.V1_v17] at h
  exact h

/-- The second layer's output array, as the head's launch finds it, is the second layer of the first layer's output. -/
theorem x2_eq (c : Dev nD) : W4 m ρ c (Proc.devRef .tc main_v33)
    = Net.layer2 (Net.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8)) := by
  have h := (W4_arr m ρ c 5).trans (Region1.value (V3 m ρ) c)
  rw [Host.V3_v31, Host.V3_v18, Host.V3_arg6, Host.V3_arg8, Host.V3_v32, x1_eq] at h
  exact h

/-- The result array after the last launch is the network's result of the arguments. -/
theorem result (c : Dev nD) : W6 m ρ c (Proc.devRef .tc main_v37)
    = Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h := (W6_arr m ρ c 5).trans (Region2.value (V5 m ρ) c)
  rw [Host.V5_v18, Host.V5_v33, Host.V5_v34, Host.V5_v35, Host.V5_v36, x1_eq, x2_eq] at h
  exact h

end Cert.KernelIdeal.Value

end
-- ==== Proof.RefStages.lean ====
/-
  The reference program's run, read stage by stage.

  The reference is a straight line of host operations. Its buffers after the run are the fold of the operations over
  the launch contents; here that fold is evaluated at the result buffer in four stretches — up to the first layer, up
  to the second layer, the head's logits, their log-softmax — each stretch read as the composition of its own operations over what the stretch
  before left, so that no stretch opens the ones before it. The result is the stage function `val_main_v49` of the
  eleven argument arrays, and no operation writes an argument.
-/
import proofs.«152914_j38147899523750_1_alg».proof.Proof.RefRun
import proofs.«152914_j38147899523750_1_alg».proof.Proof.RefRead
import Idealize.ShloMosaic.Lib.Pipeline.Frame

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Contents carried to a typed reference's buffer type and back are unchanged. -/
theorem ofBuf_toBuf {T : BufTy} (x : TRef sig T) (v : T.Contents (Elt F)) : x.ofBuf (x.toBuf v) = v := by
  obtain ⟨r, h, h2, h3⟩ := x
  subst h
  rfl

/-! ## The first stretch: up to the first layer -/

section A
variable (V : Valuation τ sig (Elt F))

/-- The edges' source nodes, as the later stretches read them. -/
theorem A_v1 : after opsA V (Proc.devRef .tc main_v1) = val_main_v1 (F := F) (V (Proc.devRef .tc main_arg1)) := by
  after_results_simp <;> rfl
/-- The edges' destination nodes. -/
theorem A_v3 : after opsA V (Proc.devRef .tc main_v3) = val_main_v3 (F := F) (V (Proc.devRef .tc main_arg1)) := by
  after_results_simp <;> rfl
/-- The first layer's result is its stage function of the first six arguments. -/
theorem A_v23 : after opsA V (Proc.devRef .tc main_v23)
    = val_main_v23 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  after_results_simp
  simp only [TRef.ofBuf, TRef.toBuf, cast_eq]
  rfl
theorem A_arg0 : after opsA V (Proc.devRef .tc main_arg0) = V (Proc.devRef .tc main_arg0) := by
  after_results_simp <;> rfl
theorem A_arg1 : after opsA V (Proc.devRef .tc main_arg1) = V (Proc.devRef .tc main_arg1) := by
  after_results_simp <;> rfl
theorem A_arg2 : after opsA V (Proc.devRef .tc main_arg2) = V (Proc.devRef .tc main_arg2) := by
  after_results_simp <;> rfl
theorem A_arg3 : after opsA V (Proc.devRef .tc main_arg3) = V (Proc.devRef .tc main_arg3) := by
  after_results_simp <;> rfl
theorem A_arg4 : after opsA V (Proc.devRef .tc main_arg4) = V (Proc.devRef .tc main_arg4) := by
  after_results_simp <;> rfl
theorem A_arg5 : after opsA V (Proc.devRef .tc main_arg5) = V (Proc.devRef .tc main_arg5) := by
  after_results_simp <;> rfl
theorem A_arg6 : after opsA V (Proc.devRef .tc main_arg6) = V (Proc.devRef .tc main_arg6) := by
  after_results_simp <;> rfl
theorem A_arg7 : after opsA V (Proc.devRef .tc main_arg7) = V (Proc.devRef .tc main_arg7) := by
  after_results_simp <;> rfl
theorem A_arg8 : after opsA V (Proc.devRef .tc main_arg8) = V (Proc.devRef .tc main_arg8) := by
  after_results_simp <;> rfl
theorem A_arg9 : after opsA V (Proc.devRef .tc main_arg9) = V (Proc.devRef .tc main_arg9) := by
  after_results_simp <;> rfl
theorem A_arg10 : after opsA V (Proc.devRef .tc main_arg10) = V (Proc.devRef .tc main_arg10) := by
  after_results_simp <;> rfl

end A

/-! ## The second stretch: from the first layer's result to the second layer's -/

section B
variable (V : Valuation τ sig (Elt F))

/-- The second stretch does not write the first layer's result. -/
theorem B_v23 : after opsB V (Proc.devRef .tc main_v23) = V (Proc.devRef .tc main_v23) := by
  after_results_simp <;> rfl
theorem B_arg0 : after opsB V (Proc.devRef .tc main_arg0) = V (Proc.devRef .tc main_arg0) := by
  after_results_simp <;> rfl
theorem B_arg1 : after opsB V (Proc.devRef .tc main_arg1) = V (Proc.devRef .tc main_arg1) := by
  after_results_simp <;> rfl
theorem B_arg2 : after opsB V (Proc.devRef .tc main_arg2) = V (Proc.devRef .tc main_arg2) := by
  after_results_simp <;> rfl
theorem B_arg3 : after opsB V (Proc.devRef .tc main_arg3) = V (Proc.devRef .tc main_arg3) := by
  after_results_simp <;> rfl
theorem B_arg4 : after opsB V (Proc.devRef .tc main_arg4) = V (Proc.devRef .tc main_arg4) := by
  after_results_simp <;> rfl
theorem B_arg5 : after opsB V (Proc.devRef .tc main_arg5) = V (Proc.devRef .tc main_arg5) := by
  after_results_simp <;> rfl
theorem B_arg6 : after opsB V (Proc.devRef .tc main_arg6) = V (Proc.devRef .tc main_arg6) := by
  after_results_simp <;> rfl
theorem B_arg7 : after opsB V (Proc.devRef .tc main_arg7) = V (Proc.devRef .tc main_arg7) := by
  after_results_simp <;> rfl
theorem B_arg8 : after opsB V (Proc.devRef .tc main_arg8) = V (Proc.devRef .tc main_arg8) := by
  after_results_simp <;> rfl
theorem B_arg9 : after opsB V (Proc.devRef .tc main_arg9) = V (Proc.devRef .tc main_arg9) := by
  after_results_simp <;> rfl
theorem B_arg10 : after opsB V (Proc.devRef .tc main_arg10) = V (Proc.devRef .tc main_arg10) := by
  after_results_simp <;> rfl

/-- From contents holding the first layer, the edge lists and the arguments, the second layer's result is its stage
    function. -/
theorem B_v43 (x0 : (⟨S50000x128, .f32⟩ : BufTy).Contents (Elt F)) (x1 : (⟨S2x800000, .i32⟩ : BufTy).Contents (Elt F)) (x2 : (⟨S800000, .f32⟩ : BufTy).Contents (Elt F)) (x3 : (⟨S128x256, .f32⟩ : BufTy).Contents (Elt F)) (x4 : (⟨S256, .f32⟩ : BufTy).Contents (Elt F)) (x5 : (⟨S128x256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F))
    (h23 : V (Proc.devRef .tc main_v23) = val_main_v23 (F := F) x0 x1 x2 x3 x4 x5)
    (h1 : V (Proc.devRef .tc main_v1) = val_main_v1 (F := F) x1) (h3 : V (Proc.devRef .tc main_v3) = val_main_v3 (F := F) x1)
    (h2 : V (Proc.devRef .tc main_arg2) = x2) (h6 : V (Proc.devRef .tc main_arg6) = x6) (h7 : V (Proc.devRef .tc main_arg7) = x7) (h8 : V (Proc.devRef .tc main_arg8) = x8) :
    after opsB V (Proc.devRef .tc main_v43) = val_main_v43 (F := F) x0 x1 x2 x3 x4 x5 x6 x7 x8 := by
  after_results_simp
  simp only [TRef.ofBuf, TRef.toBuf, cast_eq]
  rw [h23, h1, h3, h2, h6, h7, h8]
  unfold val_main_v43 val_main_v42 val_main_v41 val_main_v40 val_main_v39 val_main_v38 val_main_v37 val_main_v36 val_main_v35 val_main_v34
    val_main_v33 val_main_v32 val_main_v31 val_main_v30 val_main_v29 val_main_v28 val_main_v27 val_main_v26 val_main_v25 val_main_v24
    val_main_c_1 val_main_c_2 val_main_cst_3 val_main_call1_v0 val_main_call1_cst
  rfl

end B

/-! ## The third stretch: the head's logits -/

section C
variable (V : Valuation τ sig (Elt F))

theorem C_arg0 : after opsC V (Proc.devRef .tc main_arg0) = V (Proc.devRef .tc main_arg0) := by
  after_results_simp <;> rfl
theorem C_arg1 : after opsC V (Proc.devRef .tc main_arg1) = V (Proc.devRef .tc main_arg1) := by
  after_results_simp <;> rfl
theorem C_arg2 : after opsC V (Proc.devRef .tc main_arg2) = V (Proc.devRef .tc main_arg2) := by
  after_results_simp <;> rfl
theorem C_arg3 : after opsC V (Proc.devRef .tc main_arg3) = V (Proc.devRef .tc main_arg3) := by
  after_results_simp <;> rfl
theorem C_arg4 : after opsC V (Proc.devRef .tc main_arg4) = V (Proc.devRef .tc main_arg4) := by
  after_results_simp <;> rfl
theorem C_arg5 : after opsC V (Proc.devRef .tc main_arg5) = V (Proc.devRef .tc main_arg5) := by
  after_results_simp <;> rfl
theorem C_arg6 : after opsC V (Proc.devRef .tc main_arg6) = V (Proc.devRef .tc main_arg6) := by
  after_results_simp <;> rfl
theorem C_arg7 : after opsC V (Proc.devRef .tc main_arg7) = V (Proc.devRef .tc main_arg7) := by
  after_results_simp <;> rfl
theorem C_arg8 : after opsC V (Proc.devRef .tc main_arg8) = V (Proc.devRef .tc main_arg8) := by
  after_results_simp <;> rfl
theorem C_arg9 : after opsC V (Proc.devRef .tc main_arg9) = V (Proc.devRef .tc main_arg9) := by
  after_results_simp <;> rfl
theorem C_arg10 : after opsC V (Proc.devRef .tc main_arg10) = V (Proc.devRef .tc main_arg10) := by
  after_results_simp <;> rfl

/-- From contents holding the two layers, the head's weights and its bias, the logits are their stage function. -/
theorem C_v48 (x0 : (⟨S50000x128, .f32⟩ : BufTy).Contents (Elt F)) (x1 : (⟨S2x800000, .i32⟩ : BufTy).Contents (Elt F)) (x2 : (⟨S800000, .f32⟩ : BufTy).Contents (Elt F)) (x3 : (⟨S128x256, .f32⟩ : BufTy).Contents (Elt F)) (x4 : (⟨S256, .f32⟩ : BufTy).Contents (Elt F)) (x5 : (⟨S128x256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S512x40, .f32⟩ : BufTy).Contents (Elt F)) (x10 : (⟨S40, .f32⟩ : BufTy).Contents (Elt F))
    (h23 : V (Proc.devRef .tc main_v23) = val_main_v23 (F := F) x0 x1 x2 x3 x4 x5)
    (h43 : V (Proc.devRef .tc main_v43) = val_main_v43 (F := F) x0 x1 x2 x3 x4 x5 x6 x7 x8)
    (h9 : V (Proc.devRef .tc main_arg9) = x9) (h10 : V (Proc.devRef .tc main_arg10) = x10) :
    after opsC V (Proc.devRef .tc main_v48) = val_main_v48 (F := F) x0 x1 x2 x3 x4 x5 x6 x7 x8 x9 x10 := by
  after_results_simp
  rw [h23, h43, h9, h10]
  unfold val_main_v48 val_main_v47 val_main_v46 val_main_v45 val_main_v44
  rfl

end C

/-! ## The fourth stretch: the row-wise log-softmax of the logits -/

section D
variable (V : Valuation τ sig (Elt F))

theorem D_arg0 : after opsD V (Proc.devRef .tc main_arg0) = V (Proc.devRef .tc main_arg0) := by
  after_results
theorem D_arg1 : after opsD V (Proc.devRef .tc main_arg1) = V (Proc.devRef .tc main_arg1) := by
  after_results
theorem D_arg2 : after opsD V (Proc.devRef .tc main_arg2) = V (Proc.devRef .tc main_arg2) := by
  after_results
theorem D_arg3 : after opsD V (Proc.devRef .tc main_arg3) = V (Proc.devRef .tc main_arg3) := by
  after_results
theorem D_arg4 : after opsD V (Proc.devRef .tc main_arg4) = V (Proc.devRef .tc main_arg4) := by
  after_results
theorem D_arg5 : after opsD V (Proc.devRef .tc main_arg5) = V (Proc.devRef .tc main_arg5) := by
  after_results
theorem D_arg6 : after opsD V (Proc.devRef .tc main_arg6) = V (Proc.devRef .tc main_arg6) := by
  after_results
theorem D_arg7 : after opsD V (Proc.devRef .tc main_arg7) = V (Proc.devRef .tc main_arg7) := by
  after_results
theorem D_arg8 : after opsD V (Proc.devRef .tc main_arg8) = V (Proc.devRef .tc main_arg8) := by
  after_results
theorem D_arg9 : after opsD V (Proc.devRef .tc main_arg9) = V (Proc.devRef .tc main_arg9) := by
  after_results
theorem D_arg10 : after opsD V (Proc.devRef .tc main_arg10) = V (Proc.devRef .tc main_arg10) := by
  after_results

/-- From contents holding the logits, the result is its stage function. -/
theorem D_v49 (x0 : (⟨S50000x128, .f32⟩ : BufTy).Contents (Elt F)) (x1 : (⟨S2x800000, .i32⟩ : BufTy).Contents (Elt F)) (x2 : (⟨S800000, .f32⟩ : BufTy).Contents (Elt F)) (x3 : (⟨S128x256, .f32⟩ : BufTy).Contents (Elt F)) (x4 : (⟨S256, .f32⟩ : BufTy).Contents (Elt F)) (x5 : (⟨S128x256, .f32⟩ : BufTy).Contents (Elt F)) (x6 : (⟨S256x256, .f32⟩ : BufTy).Contents (Elt F)) (x7 : (⟨S256, .f32⟩ : BufTy).Contents (Elt F)) (x8 : (⟨S256x256, .f32⟩ : BufTy).Contents (Elt F)) (x9 : (⟨S512x40, .f32⟩ : BufTy).Contents (Elt F)) (x10 : (⟨S40, .f32⟩ : BufTy).Contents (Elt F))
    (h48 : V (Proc.devRef .tc main_v48) = val_main_v48 (F := F) x0 x1 x2 x3 x4 x5 x6 x7 x8 x9 x10) :
    after opsD V (Proc.devRef .tc main_v49) = val_main_v49 (F := F) x0 x1 x2 x3 x4 x5 x6 x7 x8 x9 x10 := by
  after_results
  simp only [ofBuf_toBuf]
  rw [h48]
  unfold val_main_v49 val_main_call2_v10 val_main_call2_v9 val_main_call2_v8 val_main_call2_v7 val_main_call2_cst_1 val_main_call2_v6
    val_main_call2_v5 val_main_call2_v4 val_main_call2_v3 val_main_call2_v2 val_main_call2_v1 val_main_call2_cst_0 val_main_call2_v0
    val_main_call2_cst
  rfl

end D

/-! ## The whole line -/

section Whole
variable (W : Valuation τ sig (Elt F))

/-- After the whole line the result buffer holds the last stage function of the launch contents of the arguments. -/
theorem result : after ops W (Proc.devRef .tc main_v49) = val_main_v49 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  rw [ops_split, StableHlo.after_append, StableHlo.after_append, StableHlo.after_append]
  exact D_v49 _ _ _ _ _ _ _ _ _ _ _ _ (C_v48 _ _ _ _ _ _ _ _ _ _ _ _
    ((B_v23 _).trans (A_v23 W))
    (B_v43 _ _ _ _ _ _ _ _ _ _ (A_v23 W) (A_v1 W) (A_v3 W) (A_arg2 W) (A_arg6 W) (A_arg7 W) (A_arg8 W))
    ((B_arg9 _).trans (A_arg9 W)) ((B_arg10 _).trans (A_arg10 W)))

/-- No operation writes argument 0. -/
theorem kept0 : after ops W (Proc.devRef .tc main_arg0) = W (Proc.devRef .tc main_arg0) := by
  rw [ops_split, StableHlo.after_append, StableHlo.after_append, StableHlo.after_append, D_arg0, C_arg0, B_arg0, A_arg0]
/-- No operation writes argument 1. -/
theorem kept1 : after ops W (Proc.devRef .tc main_arg1) = W (Proc.devRef .tc main_arg1) := by
  rw [ops_split, StableHlo.after_append, StableHlo.after_append, StableHlo.after_append, D_arg1, C_arg1, B_arg1, A_arg1]
/-- No operation writes argument 2. -/
theorem kept2 : after ops W (Proc.devRef .tc main_arg2) = W (Proc.devRef .tc main_arg2) := by
  rw [ops_split, StableHlo.after_append, StableHlo.after_append, StableHlo.after_append, D_arg2, C_arg2, B_arg2, A_arg2]
/-- No operation writes argument 3. -/
theorem kept3 : after ops W (Proc.devRef .tc main_arg3) = W (Proc.devRef .tc main_arg3) := by
  rw [ops_split, StableHlo.after_append, StableHlo.after_append, StableHlo.after_append, D_arg3, C_arg3, B_arg3, A_arg3]
/-- No operation writes argument 4. -/
theorem kept4 : after ops W (Proc.devRef .tc main_arg4) = W (Proc.devRef .tc main_arg4) := by
  rw [ops_split, StableHlo.after_append, StableHlo.after_append, StableHlo.after_append, D_arg4, C_arg4, B_arg4, A_arg4]
/-- No operation writes argument 5. -/
theorem kept5 : after ops W (Proc.devRef .tc main_arg5) = W (Proc.devRef .tc main_arg5) := by
  rw [ops_split, StableHlo.after_append, StableHlo.after_append, StableHlo.after_append, D_arg5, C_arg5, B_arg5, A_arg5]
/-- No operation writes argument 6. -/
theorem kept6 : after ops W (Proc.devRef .tc main_arg6) = W (Proc.devRef .tc main_arg6) := by
  rw [ops_split, StableHlo.after_append, StableHlo.after_append, StableHlo.after_append, D_arg6, C_arg6, B_arg6, A_arg6]
/-- No operation writes argument 7. -/
theorem kept7 : after ops W (Proc.devRef .tc main_arg7) = W (Proc.devRef .tc main_arg7) := by
  rw [ops_split, StableHlo.after_append, StableHlo.after_append, StableHlo.after_append, D_arg7, C_arg7, B_arg7, A_arg7]
/-- No operation writes argument 8. -/
theorem kept8 : after ops W (Proc.devRef .tc main_arg8) = W (Proc.devRef .tc main_arg8) := by
  rw [ops_split, StableHlo.after_append, StableHlo.after_append, StableHlo.after_append, D_arg8, C_arg8, B_arg8, A_arg8]
/-- No operation writes argument 9. -/
theorem kept9 : after ops W (Proc.devRef .tc main_arg9) = W (Proc.devRef .tc main_arg9) := by
  rw [ops_split, StableHlo.after_append, StableHlo.after_append, StableHlo.after_append, D_arg9, C_arg9, B_arg9, A_arg9]
/-- No operation writes argument 10. -/
theorem kept10 : after ops W (Proc.devRef .tc main_arg10) = W (Proc.devRef .tc main_arg10) := by
  rw [ops_split, StableHlo.after_append, StableHlo.after_append, StableHlo.after_append, D_arg10, C_arg10, B_arg10, A_arg10]

end Whole

/-! ## The run -/

/-- Every weakly fair execution of the reference terminates without a fault, with the result at the last stage
    function of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = val_main_v49 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v49).trans (result (launchContents m c)),
      (h c main_arg0).trans (kept0 (launchContents m c)),
      (h c main_arg1).trans (kept1 (launchContents m c)),
      (h c main_arg2).trans (kept2 (launchContents m c)),
      (h c main_arg3).trans (kept3 (launchContents m c)),
      (h c main_arg4).trans (kept4 (launchContents m c)),
      (h c main_arg5).trans (kept5 (launchContents m c)),
      (h c main_arg6).trans (kept6 (launchContents m c)),
      (h c main_arg7).trans (kept7 (launchContents m c)),
      (h c main_arg8).trans (kept8 (launchContents m c)),
      (h c main_arg9).trans (kept9 (launchContents m c)),
      (h c main_arg10).trans (kept10 (launchContents m c))⟩)
    (run_raw m ρ)

end Cert.ReferenceIdeal.Stages

end
-- ==== Proof.RefLayers.lean ====
import proofs.«152914_j38147899523750_1_alg».proof.Proof.RefRead
import proofs.«152914_j38147899523750_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.ReferenceIdeal.RefLayers

open Idealize.ShloMosaic Idealize.ShloMosaic.TcCoe Idealize.ShloMosaic.ValueIdx Idealize.SL.Sem
open Cert.ReferenceIdeal Cert.ReferenceIdeal.Gen Cert.ReferenceIdeal.ReadP

/-! ## The aggregation stage

The reference's gather–scale–scatter chain is, operation for operation, the specification's aggregation of the same
three operands: the two dimension records of the two programs have the same fields, and the chains are the same term. -/

section Agg
variable {F : FTy → Type} [FloatOps F]

/-- The gather records of the two programs (128-wide rows) have the same fields. -/
theorem gather128_rec : Cert.ReferenceIdeal.gather_S50000x128_S800000x1_S800000x128_1_0_n_n_0_1_1128 = Cert.KernelIdeal.gather_S50000x128_S800000x1_S800000x128_1_0_n_n_0_1_1128 := rfl
/-- The scatter records of the two programs (128-wide rows) have the same fields. -/
theorem scatter128_rec : Cert.ReferenceIdeal.scatter_S50000x128_S800000x1_S800000x128_1_0_0_1 = Cert.KernelIdeal.scatter_S50000x128_S800000x1_S800000x128_1_0_0_1 := rfl
/-- The gather records of the two programs (256-wide rows) have the same fields. -/
theorem gather256_rec : Cert.ReferenceIdeal.gather_S50000x256_S800000x1_S800000x256_1_0_n_n_0_1_1256 = Cert.KernelIdeal.gather_S50000x256_S800000x1_S800000x256_1_0_n_n_0_1_1256 := rfl
/-- The scatter records of the two programs (256-wide rows) have the same fields. -/
theorem scatter256_rec : Cert.ReferenceIdeal.scatter_S50000x256_S800000x1_S800000x256_1_0_0_1 = Cert.KernelIdeal.scatter_S50000x256_S800000x1_S800000x256_1_0_0_1 := rfl

/-- The first layer's aggregated features: the scatter-add of the scaled source rows is the specification's
    aggregation of the node features along the edge list's two rows. -/
theorem agg128_eq (x0 : (⟨S50000x128, .f32⟩ : BufTy).Contents (Elt F)) (x1 : (⟨S2x800000, .i32⟩ : BufTy).Contents (Elt F)) (x2 : (⟨S800000, .f32⟩ : BufTy).Contents (Elt F)) :
    val_main_v16 (F := F) x0 x1 x2 = Net.agg128 (F := F) x0 (Net.srcOf (F := F) x1) (Net.dstOf (F := F) x1) x2 := by
  unfold val_main_v16 val_main_v15 val_main_v14 val_main_v13 val_main_v12 val_main_v11 val_main_v10 val_main_v9 val_main_v8 val_main_v7 val_main_v6 val_main_v5 val_main_v4 val_main_v3 val_main_v2 val_main_v1 val_main_v0 val_main_c val_main_c_0 val_main_cst
  unfold Net.agg128 Net.srcCol Net.srcOf Net.dstOf
  rfl

/-- The second layer's aggregated features, over any 256-wide array `h` in place of the first layer's output: the
    same chain with the wider records. -/
theorem agg256_chain (h : (⟨S50000x256, .f32⟩ : BufTy).Contents (Elt F)) (x1 : (⟨S2x800000, .i32⟩ : BufTy).Contents (Elt F)) (x2 : (⟨S800000, .f32⟩ : BufTy).Contents (Elt F)) :
    Host.scatterAdd scatter_S50000x256_S800000x1_S800000x256_1_0_0_1 (val_main_v34 (F := F)) (val_main_v35 (F := F) x1)
        (mulf (Host.gather gather_S50000x256_S800000x1_S800000x256_1_0_n_n_0_1_1256 h (val_main_v29 (F := F) x1)) (val_main_v32 (F := F) x2))
      = Net.agg256 (F := F) h (Net.srcOf (F := F) x1) (Net.dstOf (F := F) x1) x2 := by
  unfold val_main_v35 val_main_v34 val_main_v32 val_main_v31 val_main_v29 val_main_v28 val_main_v27 val_main_v26 val_main_v25 val_main_v24 val_main_v3 val_main_v2 val_main_v1 val_main_v0 val_main_c_1 val_main_c_2 val_main_cst_3
  unfold Net.agg256 Net.srcCol Net.srcOf Net.dstOf
  rfl

/-- The second layer's aggregated features are the specification's aggregation of the first layer's output. -/
theorem agg256_eq (x0 : (⟨S50000x128, .f32⟩ : BufTy).Contents (Elt F)) (x1 : (⟨S2x800000, .i32⟩ : BufTy).Contents (Elt F)) (x2 : (⟨S800000, .f32⟩ : BufTy).Contents (Elt F)) (x3 : (⟨S128x256, .f32⟩ : BufTy).Contents (Elt F)) (x4 : (⟨S256, .f32⟩ : BufTy).Contents (Elt F)) (x5 : (⟨S128x256, .f32⟩ : BufTy).Contents (Elt F)) :
    val_main_v36 (F := F) x0 x1 x2 x3 x4 x5 = Net.agg256 (F := F) (val_main_v23 (F := F) x0 x1 x2 x3 x4 x5) (Net.srcOf (F := F) x1) (Net.dstOf (F := F) x1) x2 := by
  unfold val_main_v36 val_main_v33 val_main_v30
  generalize val_main_v23 (F := F) x0 x1 x2 x3 x4 x5 = h
  exact agg256_chain h x1 x2

end Agg

/-! ## The two layers, entry by entry

At an entry (n, j) the reference adds the bias to the aggregated product first and the root product second; the
specification adds the two products first and the bias last. Addition's commutativity and associativity
(`add_right_comm`) join the two. -/

/-- The reference's first layer (its relu result) is the specification's first layer of the arguments. -/
theorem layer1_eq (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) :
    val_main_v23 (F := Ideal) x0 x1 x2 x3 x4 x5 = Net.layer1 x0 x1 x2 x3 x4 x5 := by
  funext i
  obtain ⟨n, j, rfl⟩ : ∃ (n : Fin 50000) (j : Fin 256), i = ix2 n j := ⟨i 0, i 1, eq_ix2 i⟩
  have el17 : ∀ k : Fin 128, lidx_main_v17 (ix2 n j) k = ix2 n k := fun k => funext fun a => Fin.ext (by match a with | ⟨0, _⟩ => rfl | ⟨1, _⟩ => rfl)
  have er17 : ∀ k : Fin 128, ridx_main_v17 (ix2 n j) k = ix2 k j := fun k => funext fun a => Fin.ext (by match a with | ⟨0, _⟩ => rfl | ⟨1, _⟩ => rfl)
  have el21 : ∀ k : Fin 128, lidx_main_v21 (ix2 n j) k = ix2 n k := fun k => funext fun a => Fin.ext (by match a with | ⟨0, _⟩ => rfl | ⟨1, _⟩ => rfl)
  have er21 : ∀ k : Fin 128, ridx_main_v21 (ix2 n j) k = ix2 k j := fun k => funext fun a => Fin.ext (by match a with | ⟨0, _⟩ => rfl | ⟨1, _⟩ => rfl)
  have eb : idx_main_v18 (idx_main_v19 (ix2 n j)) = ix1 j := funext fun a => Fin.ext (by match a with | ⟨0, _⟩ => rfl)
  rw [val_main_v23_apply, val_main_v22_apply, val_main_v20_apply, val_main_v17_apply, val_main_v19_apply, val_main_v18_apply, val_main_v21_apply, val_main_call0_v0_apply, val_main_call0_cst_apply, agg128_eq]
  simp only [el17, er17, el21, er21, eb, Ideal.addf_def, Ideal.maximumf_def, Ideal.ofBits_def, Ideal.ofBits_zero_f32]
  show _ = Net.convAt _ x0 x3 x5 (Net.asRow x4) n j
  unfold Net.convAt Net.asRow
  rw [add_right_comm]

/-- The reference's second layer is the specification's second layer of its own first layer. -/
theorem layer2_eq (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) :
    val_main_v43 (F := Ideal) x0 x1 x2 x3 x4 x5 x6 x7 x8 = Net.layer2 (val_main_v23 (F := Ideal) x0 x1 x2 x3 x4 x5) x1 x2 x6 x7 x8 := by
  funext i
  obtain ⟨n, j, rfl⟩ : ∃ (n : Fin 50000) (j : Fin 256), i = ix2 n j := ⟨i 0, i 1, eq_ix2 i⟩
  have el37 : ∀ k : Fin 256, lidx_main_v37 (ix2 n j) k = ix2 n k := fun k => funext fun a => Fin.ext (by match a with | ⟨0, _⟩ => rfl | ⟨1, _⟩ => rfl)
  have er37 : ∀ k : Fin 256, ridx_main_v37 (ix2 n j) k = ix2 k j := fun k => funext fun a => Fin.ext (by match a with | ⟨0, _⟩ => rfl | ⟨1, _⟩ => rfl)
  have el41 : ∀ k : Fin 256, lidx_main_v41 (ix2 n j) k = ix2 n k := fun k => funext fun a => Fin.ext (by match a with | ⟨0, _⟩ => rfl | ⟨1, _⟩ => rfl)
  have er41 : ∀ k : Fin 256, ridx_main_v41 (ix2 n j) k = ix2 k j := fun k => funext fun a => Fin.ext (by match a with | ⟨0, _⟩ => rfl | ⟨1, _⟩ => rfl)
  have eb : idx_main_v38 (idx_main_v39 (ix2 n j)) = ix1 j := funext fun a => Fin.ext (by match a with | ⟨0, _⟩ => rfl)
  rw [val_main_v43_apply, val_main_v42_apply, val_main_v40_apply, val_main_v37_apply, val_main_v39_apply, val_main_v38_apply, val_main_v41_apply, val_main_call1_v0_apply, val_main_call1_cst_apply, agg256_eq]
  generalize val_main_v23 (F := Ideal) x0 x1 x2 x3 x4 x5 = h
  simp only [el37, er37, el41, er41, eb, Ideal.addf_def, Ideal.maximumf_def, Ideal.ofBits_def, Ideal.ofBits_zero_f32]
  show _ = Net.convAt _ h x6 x8 (Net.asRow x7) n j
  unfold Net.convAt Net.asRow
  rw [add_right_comm]

end Cert.ReferenceIdeal.RefLayers

end
-- ==== Proof.RefHead.lean ====
import proofs.«152914_j38147899523750_1_alg».proof.Proof.RefRead
import proofs.«152914_j38147899523750_1_alg».proof.Proof.Spec
import Idealize.ShloMosaic.Lib.Pipeline.Value
import Idealize.ShloMosaic.Lib.ValueLayout
import Idealize.ShloMosaic.PureOps.Ideal.Laws
import Idealize.ShloMosaic.PureOps.Reduce
import Mathlib.Algebra.BigOperators.Fin

set_option maxRecDepth 16384

noncomputable section

namespace Cert.ReferenceIdeal.RefHead

open Idealize.ShloMosaic Idealize.ShloMosaic.TcCoe Idealize.ShloMosaic.ValueIdx Idealize.SL.Sem
open Cert.ReferenceIdeal Cert.ReferenceIdeal.Gen Cert.ReferenceIdeal.ReadP

/-! ## The concatenation of the two layers, read in its left and its right half -/

/-- A column below 256 of the concatenation reads the first layer. -/
theorem cat_left (h1 h2 : (⟨S50000x256, .f32⟩ : BufTy).Contents (Elt Ideal)) (n : Fin 50000) (k : Fin 256) :
    concatenate S50000x512 1 [⟨S50000x256, h1⟩, ⟨S50000x256, h2⟩] concatenates_S50000x256_S50000x256_S50000x512_d1
        (ix2 n (Fin.castAdd 256 k)) = h1 (ix2 n k) :=
  concatenate_pair_apply_left (t := S50000x512) (s₁ := S50000x256) (s₂ := S50000x256) 1 h1 h2
    concatenates_S50000x256_S50000x256_S50000x512_d1 _ rfl (ix2 n k)
    (fun b => by match b with | ⟨0, _⟩ => rfl | ⟨1, _⟩ => rfl)

/-- A column from 256 on of the concatenation reads the second layer, 256 columns earlier. -/
theorem cat_right (h1 h2 : (⟨S50000x256, .f32⟩ : BufTy).Contents (Elt Ideal)) (n : Fin 50000) (k : Fin 256) :
    concatenate S50000x512 1 [⟨S50000x256, h1⟩, ⟨S50000x256, h2⟩] concatenates_S50000x256_S50000x256_S50000x512_d1
        (ix2 n (Fin.natAdd 256 k)) = h2 (ix2 n k) :=
  concatenate_pair_apply_right (t := S50000x512) (s₁ := S50000x256) (s₂ := S50000x256) 1 h1 h2
    concatenates_S50000x256_S50000x256_S50000x512_d1 _ rfl rfl (ix2 n k)
    (fun b hb => by match b with | ⟨0, _⟩ => rfl | ⟨1, _⟩ => exact absurd rfl hb)
    (by show k.val + 256 = 256 + k.val; omega)

/-- A sum over 512 terms is the sum of its first 256 and its last 256. -/
theorem sum_halves (f : Fin 512 → EReal) :
    ∑ k : Fin 512, f k = (∑ k : Fin 256, f (Fin.castAdd 256 k)) + ∑ k : Fin 256, f (Fin.natAdd 256 k) :=
  Fin.sum_univ_add (a := 256) (b := 256) f

/-- The contraction of the concatenated layers with the whole weight matrix, plus the bias, is the specification's
    logit: the sum splits at column 256 into the first layer against the upper half and the second against the lower. -/
theorem logit_of_cat (h1 h2 : (⟨S50000x256, .f32⟩ : BufTy).Contents (Elt Ideal)) (w : (⟨S512x40, .f32⟩ : BufTy).Contents (Elt Ideal))
    (b : (⟨S40, .f32⟩ : BufTy).Contents (Elt Ideal)) (n : Fin 50000) (j : Fin 40) :
    (∑ k : Fin 512, concatenate S50000x512 1 [⟨S50000x256, h1⟩, ⟨S50000x256, h2⟩] concatenates_S50000x256_S50000x256_S50000x512_d1
        (ix2 n k) * w (ix2 k j)) + b (ix1 j)
      = Net.logitAt h1 h2 (Net.top w) (Net.bot w) (Net.asRow b) n j := by
  rw [sum_halves]
  refine congrArg₂ (· + ·) (congrArg₂ (· + ·) (Finset.sum_congr rfl fun k _ => ?_) (Finset.sum_congr rfl fun k _ => ?_)) rfl
  · rw [cat_left h1 h2 n k]; rfl
  · rw [cat_right h1 h2 n k]; rfl

/-! ## The reduction over a row -/

/-- Dropping the column of a 50000 × 40 index set leaves the 50000 rows. -/
theorem reduces_row : S50000x40.Reduces [1] S50000 := by decide

/-- The row index n with column k put back is (n, k). -/
theorem lift_row (h : S50000x40.Reduces [1] S50000) (n : Fin 50000) (k : Fin (S50000x40.size 1)) :
    h.lift (ix1 n) k = ix2 n (⟨k.val, k.isLt⟩ : Fin 40) := by
  funext c; apply Fin.ext; fin_cases c <;> rfl

/-- The word the maximum starts from is −∞. -/
theorem neg_inf : Ideal.ofBits .f32 0xFF800000#32 = (⊥ : EReal) := by simp [Ideal.ofBits, Ideal.ieee]

/-- The maximum of −∞ and the row's maximum-reduce from −∞ is the fold of max over the row's forty entries. -/
theorem rowMax_of (x : (⟨S50000x40, .f32⟩ : BufTy).Contents (Elt Ideal)) (n : Fin 50000) :
    FloatOps.maximumf (F := Ideal) (φ := .f32) (FloatOps.ofBits .f32 0xFF800000#32)
        (Host.reduce FloatOps.maximumf x (constant (F := Ideal) S_ .f32 0xFF800000#32) reducesTo_S50000x40_S50000_d1 h_S_ (ix1 n))
      = (Finset.univ : Finset (Fin 40)).fold max ⊥ (fun j => x (ix2 n j)) := by
  have e := Host.reduce_eq_fold_single (α := Ideal .f32) (s := S50000x40) (t := S50000) (a := 1) (u := S_) FloatOps.maximumf x
    (constant (F := Ideal) S_ .f32 0xFF800000#32) reducesTo_S50000x40_S50000_d1 reduces_row h_S_ (ix1 n)
  refine (congrArg (FloatOps.maximumf (F := Ideal) (φ := .f32) (FloatOps.ofBits .f32 0xFF800000#32)) e).trans ?_
  have hf : (x ∘ reduces_row.lift (ix1 n)) = fun j : Fin 40 => x (ix2 n j) :=
    funext fun k => congrArg x (lift_row reduces_row n k)
  rw [hf]
  show max (Ideal.ofBits .f32 0xFF800000#32)
      (Finset.fold max (Ideal.ofBits .f32 0xFF800000#32) (fun j : Fin 40 => x (ix2 n j)) (Finset.univ : Finset (Fin 40))) = _
  rw [neg_inf, max_bot_left]

section
variable (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S512x40, .f32⟩ : BufTy).Contents (Elt Ideal)) (x10 : (⟨S40, .f32⟩ : BufTy).Contents (Elt Ideal))

/-! ## The index maps of the operations, at an entry -/

theorem lidx_v45 (n : Fin 50000) (j : Fin 40) (k : Fin 512) : lidx_main_v45 (ix2 n j) k = ix2 n k :=
  funext fun a => Fin.ext (by match a with | ⟨0, _⟩ => rfl | ⟨1, _⟩ => rfl)
theorem ridx_v45 (n : Fin 50000) (j : Fin 40) (k : Fin 512) : ridx_main_v45 (ix2 n j) k = ix2 k j :=
  funext fun a => Fin.ext (by match a with | ⟨0, _⟩ => rfl | ⟨1, _⟩ => rfl)
theorem idx_v46_v47 (n : Fin 50000) (j : Fin 40) : idx_main_v46 (idx_main_v47 (ix2 n j)) = ix1 j :=
  funext fun a => Fin.ext (by match a with | ⟨0, _⟩ => rfl)
theorem idx_v3_v4 (n : Fin 50000) (j : Fin 40) : idx_main_call2_v3 (idx_main_call2_v4 (ix2 n j)) = ix1 n :=
  funext fun a => Fin.ext (by match a with | ⟨0, _⟩ => rfl)
theorem idx_v7 (n : Fin 50000) (k : Fin 40) : idx_main_call2_v7 (ix1 n) k = ix2 n k :=
  funext fun a => Fin.ext (by match a with | ⟨0, _⟩ => rfl | ⟨1, _⟩ => rfl)
theorem idx_v8_v10 (n : Fin 50000) (j : Fin 40) : idx_main_call2_v8 (idx_main_call2_v10 (ix2 n j)) = ix1 n :=
  funext fun a => Fin.ext (by match a with | ⟨0, _⟩ => rfl)

/-! ## The stages of the head, at an entry -/

/-- The logits: the concatenated layers against the weights, plus the bias. -/
theorem logits_at (n : Fin 50000) (j : Fin 40) :
    val_main_v48 (F := Ideal) x0 x1 x2 x3 x4 x5 x6 x7 x8 x9 x10 (ix2 n j) = Net.logitAt (val_main_v23 (F := Ideal) x0 x1 x2 x3 x4 x5) (val_main_v43 (F := Ideal) x0 x1 x2 x3 x4 x5 x6 x7 x8) (Net.top x9) (Net.bot x9) (Net.asRow x10) n j := by
  rw [val_main_v48_apply, val_main_v45_apply, val_main_v47_apply, val_main_v46_apply]
  simp only [lidx_v45, ridx_v45, idx_v46_v47, Ideal.addf_def]
  unfold val_main_v44
  generalize val_main_v23 (F := Ideal) x0 x1 x2 x3 x4 x5 = h1
  generalize val_main_v43 (F := Ideal) x0 x1 x2 x3 x4 x5 x6 x7 x8 = h2
  exact logit_of_cat h1 h2 x9 x10 n j

/-- The row maximum. -/
theorem rowMax_at (n : Fin 50000) :
    val_main_call2_v2 (F := Ideal) x0 x1 x2 x3 x4 x5 x6 x7 x8 x9 x10 (ix1 n) = Net.rowMax (val_main_v23 (F := Ideal) x0 x1 x2 x3 x4 x5) (val_main_v43 (F := Ideal) x0 x1 x2 x3 x4 x5 x6 x7 x8) (Net.top x9) (Net.bot x9) (Net.asRow x10) n := by
  rw [val_main_call2_v2_apply, val_main_call2_v1_apply, val_main_call2_cst_0_apply]
  unfold val_main_call2_v0 val_main_call2_cst
  refine (rowMax_of _ n).trans ?_
  unfold Net.rowMax
  exact congrArg (fun f : Fin 40 → EReal => Finset.fold max ⊥ f Finset.univ) (funext fun j => logits_at x0 x1 x2 x3 x4 x5 x6 x7 x8 x9 x10 n j)

/-- The shifted logits. -/
theorem shift_at (n : Fin 50000) (j : Fin 40) :
    val_main_call2_v5 (F := Ideal) x0 x1 x2 x3 x4 x5 x6 x7 x8 x9 x10 (ix2 n j) = Net.shiftAt (val_main_v23 (F := Ideal) x0 x1 x2 x3 x4 x5) (val_main_v43 (F := Ideal) x0 x1 x2 x3 x4 x5 x6 x7 x8) (Net.top x9) (Net.bot x9) (Net.asRow x10) n j := by
  rw [val_main_call2_v5_apply, val_main_call2_v4_apply, val_main_call2_v3_apply, idx_v3_v4 n j,
    logits_at x0 x1 x2 x3 x4 x5 x6 x7 x8 x9 x10 n j, rowMax_at x0 x1 x2 x3 x4 x5 x6 x7 x8 x9 x10 n, Ideal.subf_def, Net.shiftAt]

/-- The sum of the exponentials of the shifted row (the sum starts from the zero word). -/
theorem sumExp_at (n : Fin 50000) :
    val_main_call2_v7 (F := Ideal) x0 x1 x2 x3 x4 x5 x6 x7 x8 x9 x10 (ix1 n) = ∑ k : Fin 40, Ideal.exp (Net.shiftAt (val_main_v23 (F := Ideal) x0 x1 x2 x3 x4 x5) (val_main_v43 (F := Ideal) x0 x1 x2 x3 x4 x5 x6 x7 x8) (Net.top x9) (Net.bot x9) (Net.asRow x10) n k) := by
  rw [val_main_call2_v7_apply, val_main_call2_cst_1_apply, Ideal.ofBits_def, Ideal.ofBits_zero_f32, zero_add]
  refine Finset.sum_congr rfl fun k _ => ?_
  rw [idx_v7 n k, val_main_call2_v6_apply, shift_at x0 x1 x2 x3 x4 x5 x6 x7 x8 x9 x10 n k, Ideal.hostUnary_exp_def]

end

/-- The reference's result (the log-softmax of the concatenated layers times the head's weights plus its bias) is the
    specification's head of the two layers, the weights' two halves and the bias as one row. -/
theorem head_eq (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S512x40, .f32⟩ : BufTy).Contents (Elt Ideal)) (x10 : (⟨S40, .f32⟩ : BufTy).Contents (Elt Ideal)) :
    val_main_v49 (F := Ideal) x0 x1 x2 x3 x4 x5 x6 x7 x8 x9 x10
      = Net.head (val_main_v23 (F := Ideal) x0 x1 x2 x3 x4 x5) (val_main_v43 (F := Ideal) x0 x1 x2 x3 x4 x5 x6 x7 x8) (Net.top x9) (Net.bot x9) (Net.asRow x10) := by
  funext i
  obtain ⟨n, j, rfl⟩ : ∃ (n : Fin 50000) (j : Fin 40), i = ix2 n j := ⟨i 0, i 1, eq_ix2 i⟩
  rw [Net.head_apply, Net.headAt, val_main_v49_apply, val_main_call2_v10_apply, val_main_call2_v9_apply,
    val_main_call2_v8_apply, idx_v8_v10 n j, shift_at x0 x1 x2 x3 x4 x5 x6 x7 x8 x9 x10 n j, sumExp_at x0 x1 x2 x3 x4 x5 x6 x7 x8 x9 x10 n, Ideal.subf_def,
    Ideal.hostUnary_log_def]

end Cert.ReferenceIdeal.RefHead

end
-- ==== Proof.RefValue.lean ====
import proofs.«152914_j38147899523750_1_alg».proof.Proof.RefLayers
import proofs.«152914_j38147899523750_1_alg».proof.Proof.RefHead

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.ReadP

/-- The reference's result is the network's result of its arguments. -/
theorem result (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S512x40, .f32⟩ : BufTy).Contents (Elt Ideal)) (x10 : (⟨S40, .f32⟩ : BufTy).Contents (Elt Ideal)) :
    val_main_v49 (F := Ideal) x0 x1 x2 x3 x4 x5 x6 x7 x8 x9 x10 = Net.out x0 x1 x2 x3 x4 x5 x6 x7 x8 x9 x10 := by
  rw [RefHead.head_eq, RefLayers.layer2_eq, RefLayers.layer1_eq]
  rfl

end Cert.ReferenceIdeal.RefValue

end
-- ==== Proof.lean ====
/-
  A two-layer graph-convolution network with a linear log-softmax head, as three row-tiled kernels among host
  gather / scatter-add operations, against the same network in plain array operations.

  Each kernel handles 2000 rows per grid point and every output row depends only on the same row of its inputs and on
  whole weight arrays, so the 25 blocks a kernel writes tile its output array, and the array it leaves is one function
  of the arrays it found: a layer  relu (agg · W_rel + X · W_root + b)  for the first two kernels, the row-wise
  log-softmax of  x1 · W_top + x2 · W_bot + b  for the third. The host operations between the kernels (the
  aggregation: gather of source rows, scaling by the edge weight, scatter-add into destination rows; the slicing of the
  head's weights; the reshaping of the biases) are the reference's own, so the kernel program's result is the network
  `Net.out` of the eleven arguments.

  The reference computes the same network with the additions in another order ((agg · W_rel + b) + X · W_root), with
  ONE product of the concatenated layers by the whole head matrix (a sum over 512 columns, which splits into the two
  sums over 256), and with a maximum against −∞ that changes nothing. Over the extended reals these are equalities
  (addition is commutative and associative, a finite sum splits, max ⊥ x = x); nothing else is used, so the
  precondition is not opened.

  The frames of the two kernel programs are the generated ones; the reference's frame is its run with the result
  dropped; the idealization rewrote nothing, so that conjunct is trivial.
-/
import proofs.«152914_j38147899523750_1_alg».proof.Defs
import proofs.«152914_j38147899523750_1_alg».proof.Proof.Gen.Kernel
import proofs.«152914_j38147899523750_1_alg».proof.Proof.Gen.Kernel.Frame
import proofs.«152914_j38147899523750_1_alg».proof.Proof.Gen.KernelIdeal
import proofs.«152914_j38147899523750_1_alg».proof.Proof.Gen.KernelIdeal.Frame
import proofs.«152914_j38147899523750_1_alg».proof.Proof.Gen.ReferenceIdeal
import proofs.«152914_j38147899523750_1_alg».proof.Proof.Gen.Pre_finite_inputs
import proofs.«152914_j38147899523750_1_alg».proof.Proof.KRun
import proofs.«152914_j38147899523750_1_alg».proof.Proof.KValue
import proofs.«152914_j38147899523750_1_alg».proof.Proof.RefStages
import proofs.«152914_j38147899523750_1_alg».proof.Proof.RefValue
import Idealize.ShloMosaic.Adequacy
import Idealize.ShloMosaic.Init

set_option maxRecDepth 16384

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Stages.run (F := Ideal) m ρ)

/-- From memories that agree on the arguments both programs end with the network's result of those arguments. -/
theorem algebraic : Cert.algebraic_KernelIdeal_ReferenceIdeal := by
  intro m ρ m' ρ' _ hagree
  refine ⟨fun c => Cert.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Value.result m ρ c), (h c).2⟩)
      (Cert.KernelIdeal.Named.run (F := Ideal) m ρ)
  · refine (θ_run Cert.ReferenceIdeal.defs _ _).mono (fun r h c => ⟨?_, (h c).2⟩)
      (Cert.ReferenceIdeal.Stages.run (F := Ideal) m' ρ')
    obtain ⟨h0, h1, h2, h3, h4, h5, h6, h7, h8, h9, h10⟩ := hagree c
    rw [(h c).1, Cert.ReferenceIdeal.RefValue.result, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
